-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x3x2 : Shape := ⟨3, ![4194304, 3, 2]⟩
abbrev S4194304x2x2 : Shape := ⟨3, ![4194304, 2, 2]⟩
abbrev S4194304 : Shape := ⟨1, ![4194304]⟩
abbrev S_ : Shape := ⟨0, ![]⟩

class Facts : Prop where
  bcast_S_S4194304x3x2 : S_.BroadcastsInDim S4194304x3x2 (![] : Fin 0 → Fin S4194304x3x2.rank)
  reducesTo_S4194304x3x2_S_d0_1_2 : S4194304x3x2.ReducesTo [0, 1, 2] S_
  h_S_ : 0 < S_.numel
  bcast_S_S4194304x2x2 : S_.BroadcastsInDim S4194304x2x2 (![] : Fin 0 → Fin S4194304x2x2.rank)
  reducesTo_S4194304x2x2_S_d0_1_2 : S4194304x2x2.ReducesTo [0, 1, 2] S_
  bcast_S_S4194304 : S_.BroadcastsInDim S4194304 (![] : Fin 0 → Fin S4194304.rank)
  reducesTo_S4194304_S_d0 : S4194304.ReducesTo [0] S_

variable [Facts]

def fn {F : FTy → Type} [FloatOps F] (main_arg0 : FVec F S4194304x3x2 .f32) (main_arg1 : FVec F S4194304x2x2 .f32) (main_arg2 : FVec F S4194304 .f32) : IVec S_ 1 :=
  let main_v0 : FVec F S4194304x3x2 .f32 := Host.absf main_arg0
  let main_cst : FVec F S_ .f32 := constant S_ .f32 0x7F800000#32
  let main_v1 : FVec F S4194304x3x2 .f32 := broadcastInDim S4194304x3x2 ![] bcast_S_S4194304x3x2 main_cst
  let main_v2 : IVec S4194304x3x2 1 := cmpf .olt main_v0 main_v1
  let main_c : IVec S_ 1 := constantI S_ 1 1#1
  let main_v3 : IVec S_ 1 := (fun x v => Host.reduce IntOp.andi x v reducesTo_S4194304x3x2_S_d0_1_2 h_S_) main_v2 main_c
  let main_v4 : FVec F S4194304x2x2 .f32 := Host.absf main_arg1
  let main_cst_0 : FVec F S_ .f32 := constant S_ .f32 0x7F800000#32
  let main_v5 : FVec F S4194304x2x2 .f32 := broadcastInDim S4194304x2x2 ![] bcast_S_S4194304x2x2 main_cst_0
  let main_v6 : IVec S4194304x2x2 1 := cmpf .olt main_v4 main_v5
  let main_c_1 : IVec S_ 1 := constantI S_ 1 1#1
  let main_v7 : IVec S_ 1 := (fun x v => Host.reduce IntOp.andi x v reducesTo_S4194304x2x2_S_d0_1_2 h_S_) main_v6 main_c_1
  let main_v8 : IVec S_ 1 := andi main_v3 main_v7
  let main_v9 : FVec F S4194304 .f32 := Host.absf main_arg2
  let main_cst_2 : FVec F S_ .f32 := constant S_ .f32 0x7F800000#32
  let main_v10 : FVec F S4194304 .f32 := broadcastInDim S4194304 ![] bcast_S_S4194304 main_cst_2
  let main_v11 : IVec S4194304 1 := cmpf .olt main_v9 main_v10
  let main_c_3 : IVec S_ 1 := constantI S_ 1 1#1
  let main_v12 : IVec S_ 1 := (fun x v => Host.reduce IntOp.andi x v reducesTo_S4194304_S_d0 h_S_) main_v11 main_c_3
  let main_v13 : IVec S_ 1 := andi main_v8 main_v12
  main_v13
-- ==== Kernel.lean ====
abbrev S4194304x3x2 : Shape := ⟨3, ![4194304, 3, 2]⟩
abbrev S4194304x2x2 : Shape := ⟨3, ![4194304, 2, 2]⟩
abbrev S4194304 : Shape := ⟨1, ![4194304]⟩
abbrev S4194304x6 : Shape := ⟨2, ![4194304, 6]⟩
abbrev S4194304x4 : Shape := ⟨2, ![4194304, 4]⟩
abbrev S4194304x1 : Shape := ⟨2, ![4194304, 1]⟩
abbrev S4194304x11 : Shape := ⟨2, ![4194304, 11]⟩
abbrev S2x8x128 : Shape := ⟨3, ![2, 8, 128]⟩
abbrev S8192x11 : Shape := ⟨2, ![8192, 11]⟩
abbrev S1x8x128 : Shape := ⟨3, ![1, 8, 128]⟩
abbrev S8192x1 : Shape := ⟨2, ![8192, 1]⟩
abbrev S1 : Shape := ⟨1, ![1]⟩
abbrev S1x1 : Shape := ⟨2, ![1, 1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 12
  | .vmem => 4
  | .smem => 0
  | _ => 0

abbrev bufTy : (tb : Table) → Fin (tcTables nBuf tb) → BufTy
  | .hbm, ⟨0, _⟩ => ⟨S4194304x3x2, .f32⟩
  | .hbm, ⟨1, _⟩ => ⟨S4194304x2x2, .f32⟩
  | .hbm, ⟨2, _⟩ => ⟨S4194304, .f32⟩
  | .hbm, ⟨3, _⟩ => ⟨S4194304x6, .f32⟩
  | .hbm, ⟨4, _⟩ => ⟨S4194304x4, .f32⟩
  | .hbm, ⟨5, _⟩ => ⟨S4194304x1, .f32⟩
  | .hbm, ⟨6, _⟩ => ⟨S4194304x11, .f32⟩
  | .hbm, ⟨7, _⟩ => ⟨S2x8x128, .f32⟩
  | .hbm, ⟨8, _⟩ => ⟨S2x1x1, .f32⟩
  | .hbm, ⟨9, _⟩ => ⟨S2, .f32⟩
  | .hbm, ⟨10, _⟩ => ⟨S_, .f32⟩
  | .hbm, ⟨11, _⟩ => ⟨S_, .f32⟩
  | .local _ .vmem, ⟨0, _⟩ => ⟨S8192x11, .f32⟩
  | .local _ .vmem, ⟨1, _⟩ => ⟨S8192x11, .f32⟩
  | .local _ .vmem, ⟨2, _⟩ => ⟨S1x8x128, .f32⟩
  | .local _ .vmem, ⟨3, _⟩ => ⟨S1x8x128, .f32⟩
  | _, _ => ⟨S4194304x3x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 256], ![false, false]⟩

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S4194304x3x2_S4194304x6 : S4194304x3x2.ShapeCasts S4194304x6
  shapeCasts_S4194304x2x2_S4194304x4 : S4194304x2x2.ShapeCasts S4194304x4
  shapeCasts_S4194304_S4194304x1 : S4194304.ShapeCasts S4194304x1
  concatenates_S4194304x6_S4194304x4_S4194304x1_S4194304x11_d1 : Shape.Concatenates [S4194304x6, S4194304x4, S4194304x1] S4194304x11 1
  inb_S1x8x128_S1x8x128_0_0_0 : ∀ a, (![0, 0, 0] : Fin 3 → Nat) a + S1x8x128.size a ≤ S1x8x128.size a
  h_S1x8x128 : 0 < S1x8x128.numel
  inb_S8192x11_S8192x11_0_0 : ∀ a, (![0, 0] : Fin 2 → Nat) a + S8192x11.size a ≤ S8192x11.size a
  h_S8192x11 : 0 < S8192x11.numel
  shapeCasts_S8192x11_S8192x11 : S8192x11.ShapeCasts S8192x11
  slices_S8192x11_o0_0_S8192x1 : S8192x11.Slices ![0, 0] S8192x1
  slices_S8192x11_o0_1_S8192x1 : S8192x11.Slices ![0, 1] S8192x1
  slices_S8192x11_o0_2_S8192x1 : S8192x11.Slices ![0, 2] S8192x1
  slices_S8192x11_o0_3_S8192x1 : S8192x11.Slices ![0, 3] S8192x1
  slices_S8192x11_o0_4_S8192x1 : S8192x11.Slices ![0, 4] S8192x1
  slices_S8192x11_o0_5_S8192x1 : S8192x11.Slices ![0, 5] S8192x1
  slices_S8192x11_o0_6_S8192x1 : S8192x11.Slices ![0, 6] S8192x1
  slices_S8192x11_o0_7_S8192x1 : S8192x11.Slices ![0, 7] S8192x1
  slices_S8192x11_o0_8_S8192x1 : S8192x11.Slices ![0, 8] S8192x1
  slices_S8192x11_o0_9_S8192x1 : S8192x11.Slices ![0, 9] S8192x1
  slices_S8192x11_o0_10_S8192x1 : S8192x11.Slices ![0, 10] S8192x1
  reduces_S8192x1_S1 : S8192x1.Reduces [0] S1
  shapeCasts_S1_S1x1 : S1.ShapeCasts S1x1
  shapeCasts_S1x8x128_S1x8x128 : S1x8x128.ShapeCasts S1x8x128
  shapeCasts_S1x1_S1x1x1 : S1x1.ShapeCasts S1x1x1
  broadcasts_S1x1x1_S1x8x128 : S1x1x1.Broadcasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x11.size a ≤ S4194304x11.size a
  hwx0_0 : ∀ i : grid0.Coords, EltTy.bits .f32 = 32 ∨ (Rect.block (s := S4194304x11) S8192x11.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S2x8x128.size a
  hwx0_1 : ∀ i : grid0.Coords, EltTy.bits .f32 = 32 ∨ (Rect.block (s := S2x8x128) S1x8x128.size (cc0_transform_1 i) (hinb0_1 i)).WholeWords (EltTy.packing .f32)

variable [Facts₀]

abbrev win0_0 : Pipeline.Window sig grid0 :=
  Pipeline.Window.ofSpec (Memref.whole main_v3) S8192x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4194304x3x2 : Shape := ⟨3, ![4194304, 3, 2]⟩
abbrev S4194304x2x2 : Shape := ⟨3, ![4194304, 2, 2]⟩
abbrev S4194304 : Shape := ⟨1, ![4194304]⟩
abbrev S4194304x1x2 : Shape := ⟨3, ![4194304, 1, 2]⟩
abbrev S4194304x2 : Shape := ⟨2, ![4194304, 2]⟩
abbrev S4194304x2x1 : Shape := ⟨3, ![4194304, 2, 1]⟩
abbrev S_ : Shape := ⟨0, ![]⟩
abbrev S4194304x1x1 : Shape := ⟨3, ![4194304, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S4194304x3x2, .f32⟩
  | .hbm, ⟨1, _⟩ => ⟨S4194304x2x2, .f32⟩
  | .hbm, ⟨2, _⟩ => ⟨S4194304, .f32⟩
  | .hbm, ⟨3, _⟩ => ⟨S4194304x1x2, .f32⟩
  | .hbm, ⟨4, _⟩ => ⟨S4194304x2, .f32⟩
  | .hbm, ⟨5, _⟩ => ⟨S4194304x1x2, .f32⟩
  | .hbm, ⟨6, _⟩ => ⟨S4194304x2, .f32⟩
  | .hbm, ⟨7, _⟩ => ⟨S4194304x2, .f32⟩
  | .hbm, ⟨8, _⟩ => ⟨S4194304x1x2, .f32⟩
  | .hbm, ⟨9, _⟩ => ⟨S4194304x2, .f32⟩
  | .hbm, ⟨10, _⟩ => ⟨S4194304x2, .f32⟩
  | .hbm, ⟨11, _⟩ => ⟨S4194304x2x1, .f32⟩
  | .hbm, ⟨12, _⟩ => ⟨S4194304x2x1, .f32⟩
  | .hbm, ⟨13, _⟩ => ⟨S4194304x2x2, .f32⟩
  | .hbm, ⟨14, _⟩ => ⟨S4194304x2x2, .f32⟩
  | .hbm, ⟨15, _⟩ => ⟨S4194304x2x2, .f32⟩
  | .hbm, ⟨16, _⟩ => ⟨S_, .f32⟩
  | .hbm, ⟨17, _⟩ => ⟨S4194304, .f32⟩
  | .hbm, ⟨18, _⟩ => ⟨S4194304x1x1, .f32⟩
  | .hbm, ⟨19, _⟩ => ⟨S4194304, .f32⟩
  | .hbm, ⟨20, _⟩ => ⟨S4194304x1x1, .f32⟩
  | .hbm, ⟨21, _⟩ => ⟨S4194304, .f32⟩
  | .hbm, ⟨22, _⟩ => ⟨S4194304, .f32⟩
  | .hbm, ⟨23, _⟩ => ⟨S4194304x1x1, .f32⟩
  | .hbm, ⟨24, _⟩ => ⟨S4194304, .f32⟩
  | .hbm, ⟨25, _⟩ => ⟨S4194304x1x1, .f32⟩
  | .hbm, ⟨26, _⟩ => ⟨S4194304, .f32⟩
  | .hbm, ⟨27, _⟩ => ⟨S4194304, .f32⟩
  | .hbm, ⟨28, _⟩ => ⟨S4194304, .f32⟩
  | .hbm, ⟨29, _⟩ => ⟨S4194304, .f32⟩
  | .hbm, ⟨30, _⟩ => ⟨S4194304, .f32⟩
  | .hbm, ⟨31, _⟩ => ⟨S_, .f32⟩
  | .hbm, ⟨32, _⟩ => ⟨S4194304, .f32⟩
  | .hbm, ⟨33, _⟩ => ⟨S4194304, .f32⟩
  | .hbm, ⟨34, _⟩ => ⟨S_, .f32⟩
  | .hbm, ⟨35, _⟩ => ⟨S4194304, .f32⟩
  | .hbm, ⟨36, _⟩ => ⟨S4194304, .f32⟩
  | .hbm, ⟨37, _⟩ => ⟨S4194304, .f32⟩
  | .hbm, ⟨38, _⟩ => ⟨S_, .f32⟩
  | .hbm, ⟨39, _⟩ => ⟨S_, .f32⟩
  | _, _ => ⟨S4194304x3x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩

abbrev nD : Nat := 1
abbrev τ : Topo := Topo.v7x

variable {F : FTy → Type} [FloatOps F]

class Facts₀ : Prop where
  slices_S4194304x3x2_S4194304x1x2_0_0_0 : S4194304x3x2.Slices ![0, 0, 0] S4194304x1x2
  shapeCasts_S4194304x1x2_S4194304x2 : S4194304x1x2.ShapeCasts S4194304x2
  slices_S4194304x3x2_S4194304x1x2_0_1_0 : S4194304x3x2.Slices ![0, 1, 0] S4194304x1x2
  slices_S4194304x3x2_S4194304x1x2_0_2_0 : S4194304x3x2.Slices ![0, 2, 0] S4194304x1x2
  bcast_S4194304x2_S4194304x2x1_0_1 : S4194304x2.BroadcastsInDim S4194304x2x1 (![0, 1] : Fin 2 → Fin S4194304x2x1.rank)
  concatenates_S4194304x2x1_S4194304x2x1_S4194304x2x2_d2 : Shape.Concatenates [S4194304x2x1, S4194304x2x1] S4194304x2x2 2
  reducesTo_S4194304x2x2_S4194304_d1_2 : S4194304x2x2.ReducesTo [1, 2] S4194304
  h_S_ : 0 < S_.numel
  slices_S4194304x2x2_S4194304x1x1_0_0_0 : S4194304x2x2.Slices ![0, 0, 0] S4194304x1x1
  shapeCasts_S4194304x1x1_S4194304 : S4194304x1x1.ShapeCasts S4194304
  slices_S4194304x2x2_S4194304x1x1_0_1_1 : S4194304x2x2.Slices ![0, 1, 1] S4194304x1x1
  slices_S4194304x2x2_S4194304x1x1_0_0_1 : S4194304x2x2.Slices ![0, 0, 1] S4194304x1x1
  slices_S4194304x2x2_S4194304x1x1_0_1_0 : S4194304x2x2.Slices ![0, 1, 0] S4194304x1x1
  bcast_S_S4194304 : S_.BroadcastsInDim S4194304 (![] : Fin 0 → Fin S4194304.rank)
  reducesTo_S4194304_S_d0 : S4194304.ReducesTo [0] S_
  dot_S4194304x2x2_S4194304x2x2_S4194304x2x2_2_1_1_2_0_0_wf : DotDims.WF S4194304x2x2 S4194304x2x2 S4194304x2x2 [2] [1] [1] [2] [0] [0]

variable [Facts₀]

def dot_S4194304x2x2_S4194304x2x2_S4194304x2x2_2_1_1_2_0_0 : DotDims S4194304x2x2 S4194304x2x2 S4194304x2x2 where
  lhsContracting := [2]
  rhsContracting := [1]
  lhsNonContracting := [1]
  rhsNonContracting := [2]
  lhsBatch := [0]
  rhsBatch := [0]
  wf := dot_S4194304x2x2_S4194304x2x2_S4194304x2x2_2_1_1_2_0_0_wf

class Facts : Prop extends Facts₀ where

variable [Facts]
-- ==== Proof.K.Around.lean ====
/-
  @main of the kernel's program around its one region. Four host lines come first — the three argument arrays
  flattened per triangle and joined side by side into one array of eleven columns —, then the region, then four host lines
  that read entry (p, 0, 0) of the region's result for the two halves p of the grid and add the two numbers.
  Here: the buffers' contents when the region is entered (`V0`, `V`), @main reduced to the region continued by the later
  lines, what the later lines may touch, that no host line writes an argument array, the block of a window at a grid
  point, and the branch of the body (the accumulator block is reset exactly at the first point of each half of the grid).
  Every statement is for any float instance `F`.
-/
import proofs.«119115_j69681549410630_1_alg».proof.Proof.Gen.Kernel.Launch
import proofs.«119115_j69681549410630_1_alg».proof.Proof.Gen.Kernel.Skeleton
import proofs.«119115_j69681549410630_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the launch contents after the four host lines
    before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it: it reduces to the region continued by
    the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only the region's two arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes its own result buffer only, which is neither array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- A buffer no line before the region writes is found by the region as launched. -/
theorem V_of_not_written (c : Dev nD) (b : Ref sig .tc)
    (hb : b ≠ main_v0 ∧ b ≠ main_v1 ∧ b ≠ main_v2 ∧ b ≠ main_v3) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, StableHlo.nary_writes, Finset.mem_singleton]
    exact ⟨StableHlo.devRef_ne_of_ne hb.1, StableHlo.devRef_ne_of_ne hb.2.1, StableHlo.devRef_ne_of_ne hb.2.2.1, StableHlo.devRef_ne_of_ne hb.2.2.2⟩))

theorem V_main_arg0 (c : Dev nD) : V m c main_arg0 = m ((c : Thread nD τ).loc main_arg0) :=
  V_of_not_written m c main_arg0 (by decide)
theorem V_main_arg1 (c : Dev nD) : V m c main_arg1 = m ((c : Thread nD τ).loc main_arg1) :=
  V_of_not_written m c main_arg1 (by decide)
theorem V_main_arg2 (c : Dev nD) : V m c main_arg2 = m ((c : Thread nD τ).loc main_arg2) :=
  V_of_not_written m c main_arg2 (by decide)

/-- A buffer that is neither array of the region and that no line after the region writes ends as the region found it. -/
theorem W_of_not_written (dats : (p : Fin _) → (c : Dev nD) → Dat τ (Elt F) Unit ℕ (UR sig nD τ) ℕ (cfgs p) c) (c : Dev nD) (b : Ref sig .tc)
    (hw : ∀ w, Pipeline.arrRef spec0 w ≠ b) (hb : b ≠ main_v5 ∧ b ≠ main_v6 ∧ b ≠ main_cst ∧ b ≠ main_v7) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      exact ⟨StableHlo.devRef_ne_of_ne hb.1, StableHlo.devRef_ne_of_ne hb.2.1, StableHlo.devRef_ne_of_ne hb.2.2.1, StableHlo.devRef_ne_of_ne hb.2.2.2⟩)),
    Pipeline.withArrays_of_ne _ c (V0 m c) _ b hw]

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (W_of_not_written m dats c main_arg0 (by decide) (by decide)).trans (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (W_of_not_written m dats c main_arg1 (by decide) (by decide)).trans (V_main_arg1 m c)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (W_of_not_written m dats c main_arg2 (by decide) (by decide)).trans (V_main_arg2 m c)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region's proof data -/

/-- For any proof data: a run to the library's post, read at the three argument arrays — none is an array of the region,
    none is written by a host line —, is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's branch -/

/-- The condition of the body's one branch, from the grid coordinates: the second coordinate is zero. -/
abbrev cond0_0 (i : grid0.Coords) : Prop := (Scalar.cmpi .ne (Scalar.extui (Scalar.cmpi .eq (BitVec.ofNat 32 (i 1).val) 0#32)) 0#32) = 1#1
/-- It holds at the first of the 256 points of each half of the grid — decided over the 512 points. -/
theorem hcond0_0 : ∀ t : Fin cfg0.N, cond0_0 (grid0.coords t) ↔ t.val % 256 = 0 :=
  (by decide +kernel : ∀ t : Fin grid0.N, cond0_0 (grid0.coords t) ↔ t.val % 256 = 0)

/-! ## The staging memrefs the body is called with -/

/-- One staging buffer of the output window, through which its contents are stated. -/
abbrev VO0_1 : View sig .tc .vmem S1x8x128 .f32 := (Memref.whole cc0_stg1_0 : Memref sig .tc .vmem S1x8x128 .f32).view
/-- Each window's current staging memref at point `t`, and that it is a whole buffer. -/
abbrev ms0_0 (t : Fin cfg0.N) : Memref sig .tc .vmem S8192x11 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x128 .f32 := win0_1.stage (cfg0.slots t 1)
abbrev hs0_1 (t : Fin cfg0.N) : (ms0_1 t).IsWhole := hstage0_1 ((cfg0.slots t 1).cast nbuf0_1)

end Cert.Kernel.Region

end
-- ==== Proof.K.RunFirst.lean ====
/-
  The kernel body at the FIRST point of a half of the grid (the branch taken): on whole staging memrefs, the input's at
  a block `x0` and the output's at anything, the body resets the output block to zero, reads the input block, reads the
  output block back and stores the block plus the input block's partial sum. The pieces the output block ends with are
  found by running the body; the statement is for any float instance `F`.
-/
import proofs.«119115_j69681549410630_1_alg».proof.Proof.K.Around

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging memref (last first) when the branch is taken, with the
    proof that the body runs to the continuation holding the input's memref as it was and the output's with those pieces
    written. -/
noncomputable def kernelRun0_A (c : Dev nD) (i : grid0.Coords) (arg2 : Memref sig .tc .vmem S8192x11 .f32) (harg2 : arg2.IsWhole) (arg3 : Memref sig .tc .vmem S1x8x128 .f32) (harg3 : arg3.IsWhole) (hc0 : cond0_0 i)
    (x0 : Vec F S8192x11 .f32) :
    { L1 : List (View.Piece (Elt F) S1x8x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__kernel i arg2 harg2 arg3 harg3) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

end Cert.Kernel.Region

end
-- ==== Proof.K.RunLater.lean ====
/-
  The kernel body at a LATER point of a half of the grid (the branch not taken): on whole staging memrefs, the input's at
  a block `x0` and the output's at the running contents `xo1` the point before left, the body reads the input block,
  reads the output block and stores the block plus the input block's partial sum. The pieces the output block ends with
  are found by running the body; the statement is for any float instance `F`.
-/
import proofs.«119115_j69681549410630_1_alg».proof.Proof.K.RunFirst

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging memref (last first) when the branch is not taken, with the
    proof that the body runs to the continuation holding the input's memref as it was and the output's with those pieces
    written over its running contents. -/
noncomputable def kernelRun0_B (c : Dev nD) (i : grid0.Coords) (arg2 : Memref sig .tc .vmem S8192x11 .f32) (harg2 : arg2.IsWhole) (arg3 : Memref sig .tc .vmem S1x8x128 .f32) (harg3 : arg3.IsWhole) (hc0 : ¬cond0_0 i)
    (x0 : Vec F S8192x11 .f32) (xo1 : Vec F S1x8x128 .f32) :
    { L1 : List (View.Piece (Elt F) S1x8x128 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__kernel i arg2 harg2 arg3 harg3) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.Kernel.Region

end
-- ==== Proof.K.Frame.lean ====
/-
  The run of the kernel's program and its frame, for any float instance `F`.
  The output window's block index depends on the first grid coordinate only, so its staging buffer is carried across the
  256 points of a half of the grid and written back after the last of them. What the buffer holds after each point is
  defined by recursion on the point (`outsAt0`): at the first point of a half what the body leaves after its reset, at
  a later point what the body leaves over the contents the point before left. With that as the region's proof data the
  body's run at every point is the library's obligation, and the library's launch around the region gives the run of
  @main: every array of the region at the contents the proof data say, every other buffer as the host lines leave it.
-/
import proofs.«119115_j69681549410630_1_alg».proof.Proof.K.RunLater

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a first point the body's pieces for the output tile its block, so they cover it. -/
theorem cover0_A_1 (c : Dev nD) (i : grid0.Coords) (arg2 : Memref sig .tc .vmem S8192x11 .f32) (harg2 : arg2.IsWhole) (arg3 : Memref sig .tc .vmem S1x8x128 .f32) (harg3 : arg3.IsWhole) (hc0 : cond0_0 i)
    (x0 : Vec F S8192x11 .f32) (y : S1x8x128.Idx) :
    ∃ pc ∈ (kernelRun0_A c i arg2 harg2 arg3 harg3 hc0 x0).1, y ∈ pc.1.set :=
  View.cover_of_tiledL (kernelRun0_A c i arg2 harg2 arg3 harg3 hc0 x0).1 S1x8x128.size (by sl_kernel_rfl) y

/-- What the body leaves in the output's staging buffer at a first point: its pieces read back. -/
def out0_A_1 (c : Dev nD) (i : grid0.Coords) (arg2 : Memref sig .tc .vmem S8192x11 .f32) (harg2 : arg2.IsWhole) (arg3 : Memref sig .tc .vmem S1x8x128 .f32) (harg3 : arg3.IsWhole) (hc0 : cond0_0 i)
    (x0 : Vec F S8192x11 .f32) : Vec F S1x8x128 .f32 :=
  VO0_1.read (Elt F) (VO0_1.writes (Elt F) VO0_1.junk (kernelRun0_A c i arg2 harg2 arg3 harg3 hc0 x0).1)

/-- At a later point the body's pieces for the output tile its block, so they cover it. -/
theorem cover0_B_1 (c : Dev nD) (i : grid0.Coords) (arg2 : Memref sig .tc .vmem S8192x11 .f32) (harg2 : arg2.IsWhole) (arg3 : Memref sig .tc .vmem S1x8x128 .f32) (harg3 : arg3.IsWhole) (hc0 : ¬cond0_0 i)
    (x0 : Vec F S8192x11 .f32) (xo1 : Vec F S1x8x128 .f32) (y : S1x8x128.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S1x8x128.size (by sl_kernel_rfl) y

/-- What the body leaves in the output's staging buffer at a later point, over the running contents `xo1`. -/
def out0_B_1 (c : Dev nD) (i : grid0.Coords) (arg2 : Memref sig .tc .vmem S8192x11 .f32) (harg2 : arg2.IsWhole) (arg3 : Memref sig .tc .vmem S1x8x128 .f32) (harg3 : arg3.IsWhole) (hc0 : ¬cond0_0 i)
    (x0 : Vec F S8192x11 .f32) (xo1 : Vec F S1x8x128 .f32) : Vec F S1x8x128 .f32 :=
  VO0_1.read (Elt F) (VO0_1.writes (Elt F) VO0_1.junk (kernelRun0_B c i arg2 harg2 arg3 harg3 hc0 x0 xo1).1)

/-! ## What the output's staging buffer holds after each point -/

/-- THE ACCUMULATION: after the body at position `n` — at a first point of a half of the grid the reset run on the point's
    input block, at a later point the accumulating run on the point's input block over what position `n - 1` left. -/
def outsAt0 (c : Dev nD) : (n : ℕ) → n < cfg0.N → Vec F S1x8x128 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (iblk m c 0 ⟨0, hn⟩)
  | n + 1, hn =>
    if h0 : (n + 1) % 256 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (iblk m c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (iblk m c 0 ⟨n + 1, hn⟩) (outsAt0 c n (Nat.lt_of_succ_lt hn))

/-- `outsAt0` at a first point. -/
theorem outsAt0_A (c : Dev nD) (t : Fin cfg0.N) (h0 : t.val % 256 = 0) :
    outsAt0 m c t.val t.isLt = out0_A_1 c (grid0.coords t) (ms0_0 t) (hs0_0 t) (ms0_1 t) (hs0_1 t) ((hcond0_0 t).mpr h0) (iblk m c 0 t) := by
  obtain ⟨n, hn⟩ := t
  cases n with
  | zero => exact rfl
  | succ n => exact (dif_pos h0).trans rfl

/-- `outsAt0` at a later point: over what the point before left. -/
theorem outsAt0_B (c : Dev nD) (t : Fin cfg0.N) (h0 : ¬t.val % 256 = 0) :
    outsAt0 m c t.val t.isLt = out0_B_1 c (grid0.coords t) (ms0_0 t) (hs0_0 t) (ms0_1 t) (hs0_1 t) (fun h => h0 ((hcond0_0 t).mp h)) (iblk m c 0 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The region's proof data -/

/-- On core `c`: the arrays as the region finds them; after the body at point `t` the input's buffer at its block and
    the output's at `outsAt0`; the invariant the scoped rest and the generator register, untouched; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d
/-- At a later point the output's current staging buffer holds what the body left at the point before: the point is not
    the first, and the buffer is written back only after the last point of a half of the grid. -/
theorem before0_1_B (c : Dev nD) (t : Fin cfg0.N) (h0 : ¬t.val % 256 = 0) (d) :
    (dats m 0 c).before 1 t d = (outsAt0 m c (t.val - 1) (Nat.lt_of_le_of_lt (Nat.sub_le _ _) t.isLt)) := by
  have hN : t.val < 512 := lt_of_lt_of_eq t.isLt (show cfg0.N = 512 from N_0)
  rw [Dat.before_out_kept _ 1 rfl t (by omega) (Bool.eq_false_iff.mpr fun h => by have := (flush0_1 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 800000 in
/-- The body at any point: the input's memref holds its block; the closed form of the branch says which run applies, and at
    a later point the output's memref holds what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  have hN : t.val < 512 := lt_of_lt_of_eq t.isLt (show cfg0.N = 512 from N_0)
  by_cases h0 : t.val % 256 = 0
  · rw [outsAt0_A m c t h0]
    unfold out0_A_1
    iintro ⟨HΦ, Ho, ⟨%d0, H0⟩, ⟨%d1, H1⟩⟩
    iapply ((kernelRun0_A c (grid0.coords t) _ _ _ _ ((hcond0_0 t).mpr h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _)
  · rw [outsAt0_B m c t h0]
    simp only [before0_1_B m c t h0]
    unfold out0_B_1
    iintro ⟨HΦ, Ho, ⟨%d0, H0⟩, ⟨%d1, H1⟩⟩
    iapply ((kernelRun0_B c (grid0.coords t) _ _ _ _ (fun h => h0 ((hcond0_0 t).mp h)) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has the
    region's two arrays at what the library computes from the proof data and every other unscoped buffer as the host lines
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs to the end, faults nowhere and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Region

end
-- ==== Proof.KI.Around.lean ====
/-
  @main of the kernel's program around its one region. Four host lines come first — the three argument arrays
  flattened per triangle and joined side by side into one array of eleven columns —, then the region, then four host lines
  that read entry (p, 0, 0) of the region's result for the two halves p of the grid and add the two numbers.
  Here: the buffers' contents when the region is entered (`V0`, `V`), @main reduced to the region continued by the later
  lines, what the later lines may touch, that no host line writes an argument array, the block of a window at a grid
  point, and the branch of the body (the accumulator block is reset exactly at the first point of each half of the grid).
  Every statement is for any float instance `F`.
-/
import proofs.«119115_j69681549410630_1_alg».proof.Proof.Gen.KernelIdeal.Launch
import proofs.«119115_j69681549410630_1_alg».proof.Proof.Gen.KernelIdeal.Skeleton
import proofs.«119115_j69681549410630_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the launch contents after the four host lines
    before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it: it reduces to the region continued by
    the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only the region's two arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes its own result buffer only, which is neither array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- A buffer no line before the region writes is found by the region as launched. -/
theorem V_of_not_written (c : Dev nD) (b : Ref sig .tc)
    (hb : b ≠ main_v0 ∧ b ≠ main_v1 ∧ b ≠ main_v2 ∧ b ≠ main_v3) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, StableHlo.nary_writes, Finset.mem_singleton]
    exact ⟨StableHlo.devRef_ne_of_ne hb.1, StableHlo.devRef_ne_of_ne hb.2.1, StableHlo.devRef_ne_of_ne hb.2.2.1, StableHlo.devRef_ne_of_ne hb.2.2.2⟩))

theorem V_main_arg0 (c : Dev nD) : V m c main_arg0 = m ((c : Thread nD τ).loc main_arg0) :=
  V_of_not_written m c main_arg0 (by decide)
theorem V_main_arg1 (c : Dev nD) : V m c main_arg1 = m ((c : Thread nD τ).loc main_arg1) :=
  V_of_not_written m c main_arg1 (by decide)
theorem V_main_arg2 (c : Dev nD) : V m c main_arg2 = m ((c : Thread nD τ).loc main_arg2) :=
  V_of_not_written m c main_arg2 (by decide)

/-- A buffer that is neither array of the region and that no line after the region writes ends as the region found it. -/
theorem W_of_not_written (dats : (p : Fin _) → (c : Dev nD) → Dat τ (Elt F) Unit ℕ (UR sig nD τ) ℕ (cfgs p) c) (c : Dev nD) (b : Ref sig .tc)
    (hw : ∀ w, Pipeline.arrRef spec0 w ≠ b) (hb : b ≠ main_v5 ∧ b ≠ main_v6 ∧ b ≠ main_cst ∧ b ≠ main_v7) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      exact ⟨StableHlo.devRef_ne_of_ne hb.1, StableHlo.devRef_ne_of_ne hb.2.1, StableHlo.devRef_ne_of_ne hb.2.2.1, StableHlo.devRef_ne_of_ne hb.2.2.2⟩)),
    Pipeline.withArrays_of_ne _ c (V0 m c) _ b hw]

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (W_of_not_written m dats c main_arg0 (by decide) (by decide)).trans (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (W_of_not_written m dats c main_arg1 (by decide) (by decide)).trans (V_main_arg1 m c)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (W_of_not_written m dats c main_arg2 (by decide) (by decide)).trans (V_main_arg2 m c)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region's proof data -/

/-- For any proof data: a run to the library's post, read at the three argument arrays — none is an array of the region,
    none is written by a host line —, is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's branch -/

/-- The condition of the body's one branch, from the grid coordinates: the second coordinate is zero. -/
abbrev cond0_0 (i : grid0.Coords) : Prop := (Scalar.cmpi .ne (Scalar.extui (Scalar.cmpi .eq (BitVec.ofNat 32 (i 1).val) 0#32)) 0#32) = 1#1
/-- It holds at the first of the 256 points of each half of the grid — decided over the 512 points. -/
theorem hcond0_0 : ∀ t : Fin cfg0.N, cond0_0 (grid0.coords t) ↔ t.val % 256 = 0 :=
  (by decide +kernel : ∀ t : Fin grid0.N, cond0_0 (grid0.coords t) ↔ t.val % 256 = 0)

/-! ## The staging memrefs the body is called with -/

/-- One staging buffer of the output window, through which its contents are stated. -/
abbrev VO0_1 : View sig .tc .vmem S1x8x128 .f32 := (Memref.whole cc0_stg1_0 : Memref sig .tc .vmem S1x8x128 .f32).view
/-- Each window's current staging memref at point `t`, and that it is a whole buffer. -/
abbrev ms0_0 (t : Fin cfg0.N) : Memref sig .tc .vmem S8192x11 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x128 .f32 := win0_1.stage (cfg0.slots t 1)
abbrev hs0_1 (t : Fin cfg0.N) : (ms0_1 t).IsWhole := hstage0_1 ((cfg0.slots t 1).cast nbuf0_1)

end Cert.KernelIdeal.Region

end
-- ==== Proof.KI.RunFirst.lean ====
/-
  The kernel body at the FIRST point of a half of the grid (the branch taken): on whole staging memrefs, the input's at
  a block `x0` and the output's at anything, the body resets the output block to zero, reads the input block, reads the
  output block back and stores the block plus the input block's partial sum. The pieces the output block ends with are
  found by running the body; the statement is for any float instance `F`.
-/
import proofs.«119115_j69681549410630_1_alg».proof.Proof.KI.Around

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging memref (last first) when the branch is taken, with the
    proof that the body runs to the continuation holding the input's memref as it was and the output's with those pieces
    written. -/
noncomputable def kernelRun0_A (c : Dev nD) (i : grid0.Coords) (arg2 : Memref sig .tc .vmem S8192x11 .f32) (harg2 : arg2.IsWhole) (arg3 : Memref sig .tc .vmem S1x8x128 .f32) (harg3 : arg3.IsWhole) (hc0 : cond0_0 i)
    (x0 : Vec F S8192x11 .f32) :
    { L1 : List (View.Piece (Elt F) S1x8x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__kernel i arg2 harg2 arg3 harg3) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

end Cert.KernelIdeal.Region

end
-- ==== Proof.KI.RunLater.lean ====
/-
  The kernel body at a LATER point of a half of the grid (the branch not taken): on whole staging memrefs, the input's at
  a block `x0` and the output's at the running contents `xo1` the point before left, the body reads the input block,
  reads the output block and stores the block plus the input block's partial sum. The pieces the output block ends with
  are found by running the body; the statement is for any float instance `F`.
-/
import proofs.«119115_j69681549410630_1_alg».proof.Proof.KI.RunFirst

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging memref (last first) when the branch is not taken, with the
    proof that the body runs to the continuation holding the input's memref as it was and the output's with those pieces
    written over its running contents. -/
noncomputable def kernelRun0_B (c : Dev nD) (i : grid0.Coords) (arg2 : Memref sig .tc .vmem S8192x11 .f32) (harg2 : arg2.IsWhole) (arg3 : Memref sig .tc .vmem S1x8x128 .f32) (harg3 : arg3.IsWhole) (hc0 : ¬cond0_0 i)
    (x0 : Vec F S8192x11 .f32) (xo1 : Vec F S1x8x128 .f32) :
    { L1 : List (View.Piece (Elt F) S1x8x128 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__kernel i arg2 harg2 arg3 harg3) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.KernelIdeal.Region

end
-- ==== Proof.KI.Frame.lean ====
/-
  The run of the kernel's program and its frame, for any float instance `F`.
  The output window's block index depends on the first grid coordinate only, so its staging buffer is carried across the
  256 points of a half of the grid and written back after the last of them. What the buffer holds after each point is
  defined by recursion on the point (`outsAt0`): at the first point of a half what the body leaves after its reset, at
  a later point what the body leaves over the contents the point before left. With that as the region's proof data the
  body's run at every point is the library's obligation, and the library's launch around the region gives the run of
  @main: every array of the region at the contents the proof data say, every other buffer as the host lines leave it.
-/
import proofs.«119115_j69681549410630_1_alg».proof.Proof.KI.RunLater

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a first point the body's pieces for the output tile its block, so they cover it. -/
theorem cover0_A_1 (c : Dev nD) (i : grid0.Coords) (arg2 : Memref sig .tc .vmem S8192x11 .f32) (harg2 : arg2.IsWhole) (arg3 : Memref sig .tc .vmem S1x8x128 .f32) (harg3 : arg3.IsWhole) (hc0 : cond0_0 i)
    (x0 : Vec F S8192x11 .f32) (y : S1x8x128.Idx) :
    ∃ pc ∈ (kernelRun0_A c i arg2 harg2 arg3 harg3 hc0 x0).1, y ∈ pc.1.set :=
  View.cover_of_tiledL (kernelRun0_A c i arg2 harg2 arg3 harg3 hc0 x0).1 S1x8x128.size (by sl_kernel_rfl) y

/-- What the body leaves in the output's staging buffer at a first point: its pieces read back. -/
def out0_A_1 (c : Dev nD) (i : grid0.Coords) (arg2 : Memref sig .tc .vmem S8192x11 .f32) (harg2 : arg2.IsWhole) (arg3 : Memref sig .tc .vmem S1x8x128 .f32) (harg3 : arg3.IsWhole) (hc0 : cond0_0 i)
    (x0 : Vec F S8192x11 .f32) : Vec F S1x8x128 .f32 :=
  VO0_1.read (Elt F) (VO0_1.writes (Elt F) VO0_1.junk (kernelRun0_A c i arg2 harg2 arg3 harg3 hc0 x0).1)

/-- At a later point the body's pieces for the output tile its block, so they cover it. -/
theorem cover0_B_1 (c : Dev nD) (i : grid0.Coords) (arg2 : Memref sig .tc .vmem S8192x11 .f32) (harg2 : arg2.IsWhole) (arg3 : Memref sig .tc .vmem S1x8x128 .f32) (harg3 : arg3.IsWhole) (hc0 : ¬cond0_0 i)
    (x0 : Vec F S8192x11 .f32) (xo1 : Vec F S1x8x128 .f32) (y : S1x8x128.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S1x8x128.size (by sl_kernel_rfl) y

/-- What the body leaves in the output's staging buffer at a later point, over the running contents `xo1`. -/
def out0_B_1 (c : Dev nD) (i : grid0.Coords) (arg2 : Memref sig .tc .vmem S8192x11 .f32) (harg2 : arg2.IsWhole) (arg3 : Memref sig .tc .vmem S1x8x128 .f32) (harg3 : arg3.IsWhole) (hc0 : ¬cond0_0 i)
    (x0 : Vec F S8192x11 .f32) (xo1 : Vec F S1x8x128 .f32) : Vec F S1x8x128 .f32 :=
  VO0_1.read (Elt F) (VO0_1.writes (Elt F) VO0_1.junk (kernelRun0_B c i arg2 harg2 arg3 harg3 hc0 x0 xo1).1)

/-! ## What the output's staging buffer holds after each point -/

/-- THE ACCUMULATION: after the body at position `n` — at a first point of a half of the grid the reset run on the point's
    input block, at a later point the accumulating run on the point's input block over what position `n - 1` left. -/
def outsAt0 (c : Dev nD) : (n : ℕ) → n < cfg0.N → Vec F S1x8x128 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (iblk m c 0 ⟨0, hn⟩)
  | n + 1, hn =>
    if h0 : (n + 1) % 256 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (iblk m c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (iblk m c 0 ⟨n + 1, hn⟩) (outsAt0 c n (Nat.lt_of_succ_lt hn))

/-- `outsAt0` at a first point. -/
theorem outsAt0_A (c : Dev nD) (t : Fin cfg0.N) (h0 : t.val % 256 = 0) :
    outsAt0 m c t.val t.isLt = out0_A_1 c (grid0.coords t) (ms0_0 t) (hs0_0 t) (ms0_1 t) (hs0_1 t) ((hcond0_0 t).mpr h0) (iblk m c 0 t) := by
  obtain ⟨n, hn⟩ := t
  cases n with
  | zero => exact rfl
  | succ n => exact (dif_pos h0).trans rfl

/-- `outsAt0` at a later point: over what the point before left. -/
theorem outsAt0_B (c : Dev nD) (t : Fin cfg0.N) (h0 : ¬t.val % 256 = 0) :
    outsAt0 m c t.val t.isLt = out0_B_1 c (grid0.coords t) (ms0_0 t) (hs0_0 t) (ms0_1 t) (hs0_1 t) (fun h => h0 ((hcond0_0 t).mp h)) (iblk m c 0 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The region's proof data -/

/-- On core `c`: the arrays as the region finds them; after the body at point `t` the input's buffer at its block and
    the output's at `outsAt0`; the invariant the scoped rest and the generator register, untouched; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d
/-- At a later point the output's current staging buffer holds what the body left at the point before: the point is not
    the first, and the buffer is written back only after the last point of a half of the grid. -/
theorem before0_1_B (c : Dev nD) (t : Fin cfg0.N) (h0 : ¬t.val % 256 = 0) (d) :
    (dats m 0 c).before 1 t d = (outsAt0 m c (t.val - 1) (Nat.lt_of_le_of_lt (Nat.sub_le _ _) t.isLt)) := by
  have hN : t.val < 512 := lt_of_lt_of_eq t.isLt (show cfg0.N = 512 from N_0)
  rw [Dat.before_out_kept _ 1 rfl t (by omega) (Bool.eq_false_iff.mpr fun h => by have := (flush0_1 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 800000 in
/-- The body at any point: the input's memref holds its block; the closed form of the branch says which run applies, and at
    a later point the output's memref holds what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  have hN : t.val < 512 := lt_of_lt_of_eq t.isLt (show cfg0.N = 512 from N_0)
  by_cases h0 : t.val % 256 = 0
  · rw [outsAt0_A m c t h0]
    unfold out0_A_1
    iintro ⟨HΦ, Ho, ⟨%d0, H0⟩, ⟨%d1, H1⟩⟩
    iapply ((kernelRun0_A c (grid0.coords t) _ _ _ _ ((hcond0_0 t).mpr h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _)
  · rw [outsAt0_B m c t h0]
    simp only [before0_1_B m c t h0]
    unfold out0_B_1
    iintro ⟨HΦ, Ho, ⟨%d0, H0⟩, ⟨%d1, H1⟩⟩
    iapply ((kernelRun0_B c (grid0.coords t) _ _ _ _ (fun h => h0 ((hcond0_0 t).mp h)) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has the
    region's two arrays at what the library computes from the proof data and every other unscoped buffer as the host lines
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs to the end, faults nowhere and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Region

end
-- ==== Proof.KI.Pieces.lean ====
/-
  What the body leaves in the output block, as a function of what it read: at a first point of a half of the grid the
  stored value is the reset block (zeros) plus the input block's partial sum, at a later point the block the point before
  left plus the input block's partial sum — in both cases the body's last store covers the whole block, so the block ends
  at that store's value, and the value it read back is the one stored just before (the zeros) or the running contents.
  For any float instance `F`.
-/
import proofs.«119115_j69681549410630_1_alg».proof.Proof.KI.Frame
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero3 : (![0, 0, 0] : Fin 3 → Nat) = fun _ => 0 := funext fun a => by fin_cases a <;> rfl
theorem zero2 : (![0, 0] : Fin 2 → Nat) = fun _ => 0 := funext fun a => by fin_cases a <;> rfl

/-- After a first point: the accumulating store's value over the reset block. -/
theorem out0_A_1_eq (c : Dev nD) (i : grid0.Coords) (arg2 : Memref sig .tc .vmem S8192x11 .f32) (harg2 : arg2.IsWhole) (arg3 : Memref sig .tc .vmem S1x8x128 .f32) (harg3 : arg3.IsWhole) (hc0 : cond0_0 i)
    (x0 : Vec F S8192x11 .f32) : out0_A_1 c i arg2 harg2 arg3 harg3 hc0 x0 = k0_pay1 (k0_pay3 x0) (k0_pay2 (F := F)) := by
  unfold out0_A_1
  rw [View.read_writes_eq_canon _ _ _ (cover0_A_1 c i arg2 harg2 arg3 harg3 hc0 x0)]
  unfold kernelRun0_A
  dsimp only
  sl_unfold_words
  rw [View.canon_cons_unit_zero (S := S1x8x128) zero3, View.readCov_unit_zero (S := S1x8x128) _ zero3]
  simp only [View.readAt_eq_ld, harg2.read_unread, View.ld_unit_zero (S := S8192x11) zero2]

/-- After a later point: the accumulating store's value over the running contents. -/
theorem out0_B_1_eq (c : Dev nD) (i : grid0.Coords) (arg2 : Memref sig .tc .vmem S8192x11 .f32) (harg2 : arg2.IsWhole) (arg3 : Memref sig .tc .vmem S1x8x128 .f32) (harg3 : arg3.IsWhole) (hc0 : ¬cond0_0 i)
    (x0 : Vec F S8192x11 .f32) (xo1 : Vec F S1x8x128 .f32) : out0_B_1 c i arg2 harg2 arg3 harg3 hc0 x0 xo1 = k0_pay1 (k0_pay3 x0) xo1 := by
  unfold out0_B_1
  rw [View.read_writes_eq_canon _ _ _ (cover0_B_1 c i arg2 harg2 arg3 harg3 hc0 x0 xo1)]
  unfold kernelRun0_B
  dsimp only
  sl_unfold_words
  rw [View.canon_unit_zero (S := S1x8x128) zero3]
  simp only [View.readAt_eq_ld, harg2.read_unread, harg3.read_unread, View.ld_unit_zero (S := S8192x11) zero2, View.ld_unit_zero (S := S1x8x128) zero3]

end Cert.KernelIdeal.Region

end
-- ==== Proof.Energy.lean ====
/-
  The symmetric-Dirichlet energy of a triangle mesh, as ONE function of the three argument arrays over the extended reals.

  A triangle `t` comes with eleven numbers: its three deformed vertices `v0, v1, v2` (two coordinates each), the four entries
  of the inverse rest-pose edge matrix `Ainv`, and its area weight. With the edge vectors `e1 = v1 - v0`, `e2 = v2 - v0` as the
  COLUMNS of a 2x2 matrix `B`, the deformation Jacobian is `J = B * Ainv`, and the triangle contributes
  `weight * |J|_F^2 * (1 + 1 / det(J)^2)`. The loss is the sum of the contributions over all 4194304 triangles.
  Every operation is the extended reals' own (`+`, `-`, `*`, and the quotient `Ideal.div`), in the order and grouping
  both programs use inside one triangle; the constant one is kept as the float word it is printed as.
-/
import Idealize.ShloMosaic.PureOps.Ideal
import Idealize.ShloMosaic.Lib.ValueIdx

noncomputable section

open scoped BigOperators

namespace Cert.SymDirichlet

open Idealize.ShloMosaic Idealize.ShloMosaic.ValueIdx

/-- The vertex array: triangle, vertex, coordinate. -/
abbrev SY : Shape := ⟨3, ![4194304, 3, 2]⟩
/-- The inverse rest-pose matrices: triangle, row, column. -/
abbrev SA : Shape := ⟨3, ![4194304, 2, 2]⟩
/-- The area weights: one per triangle. -/
abbrev SW : Shape := ⟨1, ![4194304]⟩

/-- The float word of `1.0`, read as an extended real. -/
abbrev one : EReal := Ideal.ofBits .f32 0x3F800000#32

/-- The contribution of one triangle from its eleven numbers `r`: `r 0 .. r 5` the vertices `v0x v0y v1x v1y v2x v2y`,
    `r 6 .. r 9` the matrix `Ainv` row by row, `r 10` the weight. -/
def rowEnergy (r : Fin 11 → EReal) : EReal :=
  let e1x := r 2 - r 0
  let e1y := r 3 - r 1
  let e2x := r 4 - r 0
  let e2y := r 5 - r 1
  let J00 := e1x * r 6 + e2x * r 8
  let J01 := e1x * r 7 + e2x * r 9
  let J10 := e1y * r 6 + e2y * r 8
  let J11 := e1y * r 7 + e2y * r 9
  let fro2 := J00 * J00 + J01 * J01 + J10 * J10 + J11 * J11
  let detJ := J00 * J11 - J01 * J10
  r 10 * fro2 * (one + Ideal.div one (detJ * detJ))

/-- The eleven numbers of triangle `t`, read off the three argument arrays. -/
def row (y : FVec Ideal SY .f32) (A : FVec Ideal SA .f32) (a : FVec Ideal SW .f32) (t : Fin 4194304) : Fin 11 → EReal :=
  ![y (ix3 t 0 0), y (ix3 t 0 1), y (ix3 t 1 0), y (ix3 t 1 1), y (ix3 t 2 0), y (ix3 t 2 1),
    A (ix3 t 0 0), A (ix3 t 0 1), A (ix3 t 1 0), A (ix3 t 1 1), a (ix1 t)]

/-- The loss: the sum of the triangles' contributions. -/
def total (y : FVec Ideal SY .f32) (A : FVec Ideal SA .f32) (a : FVec Ideal SW .f32) : EReal :=
  ∑ t : Fin 4194304, rowEnergy (row y A a t)

end Cert.SymDirichlet

end
-- ==== Proof.Payload.lean ====
/-
  The kernel body's arithmetic, read at an index over the extended reals.
-/
import proofs.«119115_j69681549410630_1_alg».proof.Proof.Gen.KernelIdeal.Skeleton
import proofs.«119115_j69681549410630_1_alg».proof.Proof.Energy
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.SymDirichlet

/-- One column of a block of eleven-number rows, read at a row: the row's entry in that column. -/
private theorem col_apply (x : S8192x11.Idx → EReal) (c : Nat) (hc : c < 11) (h : S8192x11.Slices ![0, c] S8192x1)
    (i : Fin 8192) : extractStridedSlice S8192x1 ![0, c] x h (ix2 i 0) = x (ix2 i ⟨c, hc⟩) :=
  extractStridedSlice_apply _ x h _ _ fun a => match a with
    | ⟨0, _⟩ => by show i.val = 0 + i.val; omega
    | ⟨1, _⟩ => by show c = c + 0; omega

/-- The index the column sum reads a row at: the row, in the one column. -/
private theorem lift_eq (j : S1.Idx) (i : Fin 8192) : reduces_S8192x1_S1.lift j i = ix2 i 0 :=
  funext fun a => Fin.ext <| match a with
    | ⟨0, _⟩ => rfl
    | ⟨1, _⟩ => by
      have h1 := (reduces_S8192x1_S1.lift j i ⟨1, by decide⟩).isLt
      have h3 : (reduces_S8192x1_S1.lift j i ⟨1, by decide⟩).val < 1 := h1
      show (reduces_S8192x1_S1.lift j i ⟨1, by decide⟩).val = 0
      omega

/-- The column sum the body takes of a block of 8192 rows of eleven numbers: the sum of the rows' contributions. -/
theorem pay3_apply (x : Vec Ideal S8192x11 .f32) (j : S1.Idx) :
    k0_pay3 (F := Ideal) x j = ∑ i : Fin 8192, rowEnergy (fun k : Fin 11 => x (ix2 i k)) := by
  unfold k0_pay3
  -- the sum over the row axis, from the zero word, is the plain sum over the rows
  refine (Ideal.multiReduction_add_single _ _ reduces_S8192x1_S1 (.inl rfl) rfl j).trans ?_
  refine Finset.sum_congr rfl fun (i : Fin 8192) _ => ?_
  rw [lift_eq j i]
  -- row by row every operation is pointwise, and each column read is the row's entry in that column
  simp only [shapeCast_self, mulf_apply, addf_apply, subf_apply, divf_apply, broadcast_apply]
  rw [col_apply x 0 (by omega), col_apply x 1 (by omega), col_apply x 2 (by omega), col_apply x 3 (by omega),
    col_apply x 4 (by omega), col_apply x 5 (by omega), col_apply x 6 (by omega), col_apply x 7 (by omega),
    col_apply x 8 (by omega), col_apply x 9 (by omega), col_apply x 10 (by omega)]
  -- the same operations in the same order on the same eleven numbers
  rfl

/-- The value the body resets the accumulator block to: zero everywhere. -/
theorem pay2_apply (j : S1x8x128.Idx) : k0_pay2 (F := Ideal) j = 0 := by
  unfold k0_pay2
  exact Ideal.ofBits_zero_f32

/-- The value the body stores back: the accumulator block plus the block's partial sum, at every entry. -/
theorem pay1_apply (v : FVec Ideal S1 .f32) (o : Vec Ideal S1x8x128 .f32) (j : S1x8x128.Idx) :
    k0_pay1 (F := Ideal) v o j = o j + v (ix1 0) := by
  unfold k0_pay1
  show shapeCast S1x8x128 o _ j + broadcastTo S1x8x128 (shapeCast S1x1x1 (shapeCast S1x1 v _) _) _ j = _
  rw [shapeCast_self]
  refine congrArg (o j + ·) ?_
  -- the one-entry vector spread over the block reads its one entry everywhere
  refine (broadcastTo_apply _ _ j (ix3 0 0 0) fun a => ?_).trans ?_
  · match a with
    | ⟨0, _⟩ => rfl
    | ⟨1, _⟩ => rfl
    | ⟨2, _⟩ => rfl
  refine (shapeCast_apply _ _ (ix3 0 0 0) (ix2 0 0) ?_).trans ?_
  · rw [Shape.rowMajor_val_two, Shape.rowMajor_val_three]; rfl
  refine (shapeCast_apply _ _ (ix2 0 0) (ix1 0) ?_).trans rfl
  rw [Shape.rowMajor_val_one, Shape.rowMajor_val_two]; rfl

section Combined
variable (y : FVec Ideal S4194304x3x2 .f32) (A : FVec Ideal S4194304x2x2 .f32) (a : FVec Ideal S4194304 .f32)

/-- The three argument arrays flattened per triangle and joined side by side. -/
private abbrev joined : S4194304x11.Idx → EReal :=
  concatenate S4194304x11 1 [⟨S4194304x6, shapeCast S4194304x6 y shapeCasts_S4194304x3x2_S4194304x6⟩,
      ⟨S4194304x4, shapeCast S4194304x4 A shapeCasts_S4194304x2x2_S4194304x4⟩,
      ⟨S4194304x1, shapeCast S4194304x1 a shapeCasts_S4194304_S4194304x1⟩]
    concatenates_S4194304x6_S4194304x4_S4194304x1_S4194304x11_d1

/-- Columns 0 to 5 hold the triangle's three vertices: column `c` is coordinate `c % 2` of vertex `c / 2`
    (the position `6 T + c` of the flattened array is `(3 T + c / 2) 2 + c % 2`). -/
private theorem joined_vertices (T : Fin 4194304) (c : Nat) (hc : c < 6) :
    joined y A a (ix2 T (⟨c, by omega⟩ : Fin 11)) = y (ix3 T (⟨c / 2, by omega⟩ : Fin 3) (⟨c % 2, by omega⟩ : Fin 2)) := by
  refine (concatenate_apply_piece _ _ _ (ix2 T (⟨c, by omega⟩ : Fin 11)) 0 ?_ S4194304x6 _ rfl rfl 0 rfl
    (ix2 T (⟨c, hc⟩ : Fin 6)) ?_ ?_).trans ?_
  · show 0 < 3; omega
  · intro b hb
    match b with
    | ⟨0, _⟩ => rfl
    | ⟨1, _⟩ => exact absurd rfl hb
  · show 0 + c = c; omega
  · refine shapeCast_apply _ _ _ (ix3 T (⟨c / 2, by omega⟩ : Fin 3) (⟨c % 2, by omega⟩ : Fin 2)) ?_
    rw [Shape.rowMajor_val_three, Shape.rowMajor_val_two]
    show (T.val * 3 + c / 2) * 2 + c % 2 = T.val * 6 + c
    omega

/-- Columns 6 to 9 hold the triangle's inverse rest-pose matrix row by row: column `6 + c` is entry
    `(c / 2, c % 2)`. -/
private theorem joined_matrix (T : Fin 4194304) (c : Nat) (hc : c < 4) :
    joined y A a (ix2 T (⟨6 + c, by omega⟩ : Fin 11)) = A (ix3 T (⟨c / 2, by omega⟩ : Fin 2) (⟨c % 2, by omega⟩ : Fin 2)) := by
  refine (concatenate_apply_piece _ _ _ (ix2 T (⟨6 + c, by omega⟩ : Fin 11)) 1 ?_ S4194304x4 _ rfl rfl 6 rfl
    (ix2 T (⟨c, hc⟩ : Fin 4)) ?_ ?_).trans ?_
  · show 1 < 3; omega
  · intro b hb
    match b with
    | ⟨0, _⟩ => rfl
    | ⟨1, _⟩ => exact absurd rfl hb
  · show 6 + c = 6 + c; rfl
  · refine shapeCast_apply _ _ _ (ix3 T (⟨c / 2, by omega⟩ : Fin 2) (⟨c % 2, by omega⟩ : Fin 2)) ?_
    rw [Shape.rowMajor_val_three, Shape.rowMajor_val_two]
    show (T.val * 2 + c / 2) * 2 + c % 2 = T.val * 4 + c
    omega

/-- Column 10 holds the triangle's area weight. -/
private theorem joined_weight (T : Fin 4194304) : joined y A a (ix2 T (⟨10, by omega⟩ : Fin 11)) = a (ix1 T) := by
  refine (concatenate_apply_piece _ _ _ (ix2 T (⟨10, by omega⟩ : Fin 11)) 2 ?_ S4194304x1 _ rfl rfl 10 rfl
    (ix2 T (⟨0, by omega⟩ : Fin 1)) ?_ ?_).trans ?_
  · show 2 < 3; omega
  · intro b hb
    match b with
    | ⟨0, _⟩ => rfl
    | ⟨1, _⟩ => exact absurd rfl hb
  · show 10 + 0 = 10; rfl
  · refine shapeCast_apply _ _ _ (ix1 T) ?_
    rw [Shape.rowMajor_val_one, Shape.rowMajor_val_two]
    show T.val = T.val * 1 + 0
    omega

end Combined

/-- The array the host builds for the kernel — the three argument arrays flattened per triangle and joined side by side —
    holds at row `T`, column `k` the `k`-th of triangle `T`'s eleven numbers. -/
theorem combined_apply (y : FVec Ideal S4194304x3x2 .f32) (A : FVec Ideal S4194304x2x2 .f32) (a : FVec Ideal S4194304 .f32)
    (T : Fin 4194304) (k : Fin 11) :
    concatenate S4194304x11 1 [⟨S4194304x6, shapeCast S4194304x6 y shapeCasts_S4194304x3x2_S4194304x6⟩,
        ⟨S4194304x4, shapeCast S4194304x4 A shapeCasts_S4194304x2x2_S4194304x4⟩,
        ⟨S4194304x1, shapeCast S4194304x1 a shapeCasts_S4194304_S4194304x1⟩]
      concatenates_S4194304x6_S4194304x4_S4194304x1_S4194304x11_d1 (ix2 T k) = row y A a T k := by
  match k with
  | ⟨0, _⟩ => exact joined_vertices y A a T 0 (by omega)
  | ⟨1, _⟩ => exact joined_vertices y A a T 1 (by omega)
  | ⟨2, _⟩ => exact joined_vertices y A a T 2 (by omega)
  | ⟨3, _⟩ => exact joined_vertices y A a T 3 (by omega)
  | ⟨4, _⟩ => exact joined_vertices y A a T 4 (by omega)
  | ⟨5, _⟩ => exact joined_vertices y A a T 5 (by omega)
  | ⟨6, _⟩ => exact joined_matrix y A a T 0 (by omega)
  | ⟨7, _⟩ => exact joined_matrix y A a T 1 (by omega)
  | ⟨8, _⟩ => exact joined_matrix y A a T 2 (by omega)
  | ⟨9, _⟩ => exact joined_matrix y A a T 3 (by omega)
  | ⟨10, _⟩ => exact joined_weight y A a T

end Cert.KernelIdeal.Payload

end
-- ==== Proof.KI.Accumulate.lean ====
/-
  The accumulator block after each point, over the extended reals.
  Write `s n` for the partial sum of grid point `n`'s input block (the sum of its 8192 rows' contributions). At the first
  point of a half of the grid the block is reset and ends at `0 + s n` in every entry; at a later point it ends at what the
  point before left plus `s n`. So after point `t` every entry of the block is `0 + (s b + s (b+1) + … + s t)`, `b` the
  first point of `t`'s half: the fold of the recursion, unrolled once as a sum over a range.
-/
import proofs.«119115_j69681549410630_1_alg».proof.Proof.KI.Pieces
import proofs.«119115_j69681549410630_1_alg».proof.Proof.Payload

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.SymDirichlet Cert.KernelIdeal.Payload Idealize.ShloMosaic.ValueIdx

variable (m : (ℓ : Loc nD τ sig) → Buf (Elt Ideal) ℓ)

/-- The input window's block at point `t`, at its literal type. -/
abbrev xblk (c : Dev nD) (t : Fin cfg0.N) : Vec Ideal S8192x11 .f32 := iblk m c 0 t

/-- The partial sum of grid point `n`'s input block (zero past the grid, never used there). -/
def blockSum (c : Dev nD) (n : ℕ) : EReal :=
  if h : n < cfg0.N then k0_pay3 (F := Ideal) (xblk m c ⟨n, h⟩) (ix1 0) else 0

theorem blockSum_of_lt (c : Dev nD) (n : ℕ) (h : n < cfg0.N) :
    blockSum m c n = k0_pay3 (F := Ideal) (xblk m c ⟨n, h⟩) (ix1 0) := dif_pos h

/-- The block a first point leaves, as a function of the point. -/
def resetAt (c : Dev nD) (n : ℕ) (h : n < cfg0.N) : Vec Ideal S1x8x128 .f32 :=
  k0_pay1 (F := Ideal) (k0_pay3 (xblk m c ⟨n, h⟩)) (k0_pay2 (F := Ideal))
/-- The block a later point leaves over the running contents `acc`. -/
def stepAt (c : Dev nD) (n : ℕ) (h : n < cfg0.N) (acc : Vec Ideal S1x8x128 .f32) : Vec Ideal S1x8x128 .f32 :=
  k0_pay1 (F := Ideal) (k0_pay3 (xblk m c ⟨n, h⟩)) acc

theorem outsAt0_reset (c : Dev nD) (n : ℕ) (h : n < cfg0.N) (h0 : n % 256 = 0) :
    outsAt0 m c n h = resetAt m c n h :=
  (outsAt0_A m c ⟨n, h⟩ h0).trans (out0_A_1_eq c _ _ _ _ _ _ _)

theorem outsAt0_step (c : Dev nD) (n : ℕ) (h : n + 1 < cfg0.N) (h0 : ¬(n + 1) % 256 = 0) :
    outsAt0 m c (n + 1) h = stepAt m c (n + 1) h (outsAt0 m c n (Nat.lt_of_succ_lt h)) :=
  (outsAt0_B m c ⟨n + 1, h⟩ h0).trans (out0_B_1_eq c _ _ _ _ _ _ _ _)

theorem resetAt_apply (c : Dev nD) (n : ℕ) (h : n < cfg0.N) (j : S1x8x128.Idx) :
    resetAt m c n h j = 0 + blockSum m c n := by
  unfold resetAt
  rw [pay1_apply, pay2_apply, blockSum_of_lt m c n h]

theorem stepAt_apply (c : Dev nD) (n : ℕ) (h : n < cfg0.N) (acc : Vec Ideal S1x8x128 .f32) (j : S1x8x128.Idx) :
    stepAt m c n h acc j = acc j + blockSum m c n := by
  unfold stepAt
  rw [pay1_apply, blockSum_of_lt m c n h]

/-- After point `t`, every entry of the accumulator block: zero plus the partial sums of the points of `t`'s half of the
    grid up to `t`. -/
theorem outsAt0_apply (c : Dev nD) (t : ℕ) (ht : t < cfg0.N) (j : S1x8x128.Idx) :
    outsAt0 m c t ht j = 0 + ∑ s ∈ Finset.range (t % 256 + 1), blockSum m c (256 * (t / 256) + s) := by
  have h' : 256 * (t / 256) + t % 256 < cfg0.N := by rw [Nat.div_add_mod]; exact ht
  rw [Pipeline.eq_accAt_of_mod (fun n h => outsAt0 m c n h) 256 (resetAt m c) (stepAt m c)
    (fun n h h0 => outsAt0_reset m c n h h0) (fun n h h0 => outsAt0_step m c n h h0) (by decide) t ht h']
  exact Pipeline.accAt_add_apply (resetAt m c) (stepAt m c) (fun _ => 0) (fun n _ => blockSum m c n) (256 * (t / 256)) (t % 256)
    (fun h i => resetAt_apply m c _ h i) (fun n h acc i _ _ => stepAt_apply m c n h acc i) (t % 256) le_rfl h' j

end Cert.KernelIdeal.Region

end
-- ==== Proof.BlockSums.lean ====
/-
  A sum over the first `a * b` naturals taken `b` at a time: the sum of the `a` consecutive runs' sums. Addition in a
  commutative monoid only — no subtraction and no distribution —, so it holds on the extended reals, infinities included.
-/
import Mathlib.Algebra.BigOperators.Group.Finset.Basic
import Mathlib.Algebra.BigOperators.Fin

open scoped BigOperators

namespace Cert.SymDirichlet

/-- The first `a * b` terms, summed run by run: run `i` holds the terms `i * b, …, i * b + b - 1`. -/
theorem sum_range_mul {β : Type*} [AddCommMonoid β] (g : ℕ → β) (b : ℕ) :
    ∀ a : ℕ, ∑ n ∈ Finset.range (a * b), g n = ∑ i ∈ Finset.range a, ∑ j ∈ Finset.range b, g (i * b + j)
  | 0 => by simp
  | a + 1 => by
    rw [add_mul, one_mul, Finset.sum_range_add, sum_range_mul g b a, Finset.sum_range_succ]

/-- A sum over `Fin n` of a function that is a function of the value is the sum over the first `n` naturals. -/
theorem sum_fin_eq_range {β : Type*} [AddCommMonoid β] (g : ℕ → β) (n : ℕ) :
    ∑ t : Fin n, g t.val = ∑ k ∈ Finset.range n, g k :=
  Fin.sum_univ_eq_sum_range g n

end Cert.SymDirichlet
-- ==== Proof.KI.Final.lean ====
/-
  The idealized kernel's result, over the extended reals.
  The region's result array has one block per half `p` of the grid, written back after the half's last point: every entry of
  block `p` is zero plus the partial sums of the half's 256 points. The host lines after the region read entry (p, 0, 0) of
  each block and add the two to zero. Grid point `n`'s input block is rows `8192 n … 8192 n + 8191` of the array the host lines
  before the region build, whose row `T` is triangle `T`'s eleven numbers; so point `n`'s partial sum is the sum of the
  contributions of those 8192 triangles, and the result is the sum over all 4194304 triangles, taken 8192 at a time and the
  512 runs 256 at a time: the loss.
-/
import proofs.«119115_j69681549410630_1_alg».proof.Proof.KI.Accumulate
import proofs.«119115_j69681549410630_1_alg».proof.Proof.BlockSums
import Idealize.ShloMosaic.Lib.StableHlo.Run
import Idealize.ShloMosaic.PureOps.Ideal.Laws

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.SymDirichlet Cert.KernelIdeal.Payload Idealize.ShloMosaic.ValueIdx

variable (m : (ℓ : Loc nD τ sig) → Buf (Elt Ideal) ℓ) (ρ : Dev nD → PrngReg)

/-! ## The region's result array -/

/-- What the result array ends holding: at every entry of block `p`, zero plus the partial sums of the 256 points of half `p`. -/
def halves (c : Dev nD) : S2x8x128.Idx → EReal :=
  fun i => 0 + ∑ s ∈ Finset.range 256, blockSum m c (256 * (i 0).val + s)

/-- The output window's block index, decided over the grid: the half the point lies in, on the first axis. -/
theorem idx_out : ∀ t : Fin cfg0.N, win0_1.index t (0 : Fin 3) = t.val / 256 ∧ win0_1.index t (1 : Fin 3) = 0 ∧ win0_1.index t (2 : Fin 3) = 0 :=
  (by decide +kernel : ∀ t : Fin grid0.N, win0_1.index t (0 : Fin 3) = t.val / 256 ∧ win0_1.index t (1 : Fin 3) = 0 ∧ win0_1.index t (2 : Fin 3) = 0)

/-- What a point that writes the block back writes: its block of `halves`. -/
theorem flushed1_eq (c : Dev nD) (t : Fin cfg0.N) (hf : (cfg0.win 1).flush t = true) :
    (dats m 0 c).flushed 1 t = ((cfg0.win 1).blk t).view.read (Elt Ideal) (halves m c) := by
  show (cfg0.win 1).cut (grid0.coords t) ((dats m 0 c).after 1 t) = _
  rw [after0_1]
  have h255 : t.val % 256 = 255 := (flush0_1 t).mp hf
  obtain ⟨e0, e1, e2⟩ := idx_out t
  funext j
  show outsAt0 m c t.val t.isLt j = halves m c (((cfg0.win 1).blk t).view.emb j)
  rw [outsAt0_apply, h255]
  unfold halves
  have hj : ((((cfg0.win 1).blk t).view.emb j) 0).val = t.val / 256 := by
    show win0_1.index t (0 : Fin 3) * 1 + 1 * (j 0).val = t.val / 256
    have hj0 : (j 0).val < 1 := (j 0).isLt
    omega
  rw [hj]

/-- An index of the result array is in point `t`'s block iff each coordinate is in the block's range on its axis. -/
theorem mem_blk1 (t : Fin cfg0.N) (i : S2x8x128.Idx) :
    i ∈ ((cfg0.win 1).blk t).view.set ↔ ∀ a : Fin 3, win0_1.index t a * S1x8x128.size a ≤ (i a).val ∧ (i a).val < win0_1.index t a * S1x8x128.size a + S1x8x128.size a := by
  show i ∈ ((View.whole main_v4).slice (win0_1.rect t)).set ↔ _
  rw [View.set_slice_whole, Rect.mem_set_unit]
  exact Iff.rfl

/-- Every index of the result array is in the block the last point of its half writes back. -/
theorem covered1 (i : S2x8x128.Idx) : ∃ t : Fin cfg0.N, (cfg0.win 1).flush t = true ∧ i ∈ ((cfg0.win 1).blk t).view.set := by
  have hi0 : (i 0).val < 2 := (i 0).isLt
  have hi1 : (i 1).val < 8 := (i 1).isLt
  have hi2 : (i 2).val < 128 := (i 2).isLt
  have hN : 256 * (i 0).val + 255 < cfg0.N := lt_of_lt_of_eq (by omega : 256 * (i 0).val + 255 < 512) N_0.symm
  refine ⟨⟨256 * (i 0).val + 255, hN⟩, (flush0_1 _).mpr (by show (256 * (i 0).val + 255) % 256 = 255; omega), ?_⟩
  rw [mem_blk1]
  obtain ⟨e0, e1, e2⟩ := idx_out ⟨256 * (i 0).val + 255, hN⟩
  have e0' : win0_1.index ⟨256 * (i 0).val + 255, hN⟩ (0 : Fin 3) = (i 0).val := by rw [e0]; show (256 * (i 0).val + 255) / 256 = _; omega
  intro a
  match a with
  | ⟨0, _⟩ => show win0_1.index ⟨256 * (i 0).val + 255, hN⟩ (0 : Fin 3) * 1 ≤ (i 0).val ∧ (i 0).val < win0_1.index ⟨256 * (i 0).val + 255, hN⟩ (0 : Fin 3) * 1 + 1; omega
  | ⟨1, _⟩ => show win0_1.index ⟨256 * (i 0).val + 255, hN⟩ (1 : Fin 3) * 8 ≤ (i 1).val ∧ (i 1).val < win0_1.index ⟨256 * (i 0).val + 255, hN⟩ (1 : Fin 3) * 8 + 8; omega
  | ⟨2, _⟩ => show win0_1.index ⟨256 * (i 0).val + 255, hN⟩ (2 : Fin 3) * 128 ≤ (i 2).val ∧ (i 2).val < win0_1.index ⟨256 * (i 0).val + 255, hN⟩ (2 : Fin 3) * 128 + 128; omega

/-- The result array after the run. -/
theorem final1 (c : Dev nD) : (dats m 0 c).arrAt 1 cfg0.N = halves m c :=
  (dats m 0 c).arrAt_eq_of_cover 1 (halves m c) (fun t hf => flushed1_eq m c t hf) covered1

/-! ## The host lines after the region -/

/-- An index of a vector of two entries is its one coordinate. -/
def pairEquiv : S2.Idx ≃ Fin 2 where
  toFun i := i 0
  invFun p := ix1 p
  left_inv i := (eq_ix1 i).symm
  right_inv _ := rfl

/-- The program's result: zero plus the two halves' entries (p, 0, 0). -/
theorem result_eq (c : Dev nD) :
    Pipeline.afterTail₀ cfgs (dats m) 0 (V0 m) [hostOps1] c main_v7 = fun _ => 0 + ∑ p : Fin 2, halves m c (ix3 p 0 0) := by
  unfold Pipeline.afterTail₀
  show StableHlo.after hostOps1 _ (Proc.devRef .tc main_v7) = _
  after_results
  funext x
  show Host.reduceAdd (F := Ideal) (shapeCast S2 (extractStridedSlice S2x1x1 ![0, 0, 0]
      (Pipeline.withArrays (cfgs 0).spec c (V0 m c) (fun w => (dats m 0 c).arrAt w (cfgs 0).N) (Proc.devRef .tc main_v4))
      slices_S2x8x128_S2x1x1_0_0_0) shapeCasts_S2x1x1_S2) (constant S_ .f32 0x00000000#32) reducesTo_S2_S_d0 h_S_ x = _
  rw [show Pipeline.withArrays (cfgs 0).spec c (V0 m c) (fun w => (dats m 0 c).arrAt w (cfgs 0).N) (Proc.devRef .tc main_v4) = halves m c from
    (Pipeline.withArrays_arr spec0 launch0.win.arr_inj c _ _ 1).trans (final1 m c)]
  generalize halves m c = H
  simp only [Host.reduceAdd, Ideal.hostReduceAdd_def]
  rw [Ideal.hostReduceAdd_total reducesTo_S2_S_d0 (fun b => b.elim0) _ _ x]
  have hsum : ∀ f : S2.Idx → EReal, ∑ i : S2.Idx, f i = ∑ p : Fin 2, f (ix1 p) := fun f => (Equiv.sum_comp pairEquiv.symm f).symm
  rw [hsum]
  have h0 : constant (F := Ideal) S_ .f32 (0x00000000#32) (Shape.Idx.first h_S_) = 0 := Ideal.ofBits_zero_f32
  rw [h0]
  have hterm : ∀ p : Fin 2, shapeCast S2 (extractStridedSlice S2x1x1 ![0, 0, 0] H slices_S2x8x128_S2x1x1_0_0_0)
          shapeCasts_S2x1x1_S2 (ix1 p) = H (ix3 p 0 0) := fun p => by
    have hk : (S2x1x1.rowMajor (ix3 p 0 0)).val = (S2.rowMajor (ix1 p)).val := by
      rw [Shape.rowMajor_val_three, Shape.rowMajor_val_one]; show (p.val * 1 + 0) * 1 + 0 = p.val; omega
    rw [shapeCast_apply (extractStridedSlice S2x1x1 ![0, 0, 0] H slices_S2x8x128_S2x1x1_0_0_0) shapeCasts_S2x1x1_S2 (ix1 p) (ix3 p 0 0) hk]
    exact extractStridedSlice_apply ![0, 0, 0] H slices_S2x8x128_S2x1x1_0_0_0 (ix3 p 0 0) (ix3 p 0 0) (fun a => by
      match a with
      | ⟨0, _⟩ => show p.val = 0 + p.val; omega
      | ⟨1, _⟩ => rfl
      | ⟨2, _⟩ => rfl)
  simp only [hterm]

/-! ## The host lines before the region, and the input window's blocks -/

/-- The array the region reads: the three argument arrays flattened per triangle and joined side by side. -/
theorem V_main_v3 (c : Dev nD) :
    (V m c main_v3 : S4194304x11.Idx → EReal)
      = concatenate S4194304x11 1 [⟨S4194304x6, shapeCast S4194304x6 (m ((c : Thread nD τ).loc main_arg0)) shapeCasts_S4194304x3x2_S4194304x6⟩,
        ⟨S4194304x4, shapeCast S4194304x4 (m ((c : Thread nD τ).loc main_arg1)) shapeCasts_S4194304x2x2_S4194304x4⟩,
        ⟨S4194304x1, shapeCast S4194304x1 (m ((c : Thread nD τ).loc main_arg2)) shapeCasts_S4194304_S4194304x1⟩]
      concatenates_S4194304x6_S4194304x4_S4194304x1_S4194304x11_d1 := by
  show StableHlo.after hostOps0 (fun b => m (c, b)) (Proc.devRef .tc main_v3) = _
  after_results
  rfl

/-- The input window's block index, decided over the grid: the point itself on the row axis. -/
theorem idx_in : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Row `i` of grid point `t`'s input block is triangle `8192 t + i`'s eleven numbers. -/
theorem xblk_apply (c : Dev nD) (t : Fin cfg0.N) (i : Fin 8192) (k : Fin 11) (hb : t.val * 8192 + i.val < 4194304) :
    xblk m c t (ix2 i k)
      = row (m ((c : Thread nD τ).loc main_arg0)) (m ((c : Thread nD τ).loc main_arg1)) (m ((c : Thread nD τ).loc main_arg2)) ⟨t.val * 8192 + i.val, hb⟩ k := by
  show V m c main_v3 (((cfg0.win 0).blk t).view.emb (ix2 i k)) = _
  rw [V_main_v3, ← combined_apply]
  refine congrArg _ ?_
  obtain ⟨e0, e1⟩ := idx_in t
  funext a; apply Fin.ext
  match a with
  | ⟨0, _⟩ => show win0_0.index t (0 : Fin 2) * 8192 + 1 * i.val = t.val * 8192 + i.val; rw [e0]; omega
  | ⟨1, _⟩ => show win0_0.index t (1 : Fin 2) * 11 + 1 * k.val = k.val; rw [e1]; omega

/-! ## The sum over all triangles -/

/-- Triangle `T`'s contribution, as a function of every natural (zero past the last triangle, never used there). -/
def energyAt (c : Dev nD) (T : ℕ) : EReal :=
  if h : T < 4194304 then rowEnergy (row (m ((c : Thread nD τ).loc main_arg0)) (m ((c : Thread nD τ).loc main_arg1)) (m ((c : Thread nD τ).loc main_arg2)) ⟨T, h⟩) else 0

/-- Grid point `n`'s partial sum: the contributions of triangles `8192 n … 8192 n + 8191`. -/
theorem blockSum_eq (c : Dev nD) (n : ℕ) (h : n < 512) :
    blockSum m c n = ∑ i ∈ Finset.range 8192, energyAt m c (n * 8192 + i) := by
  have hN : n < cfg0.N := lt_of_lt_of_eq h N_0.symm
  rw [blockSum_of_lt m c n hN, pay3_apply, ← sum_fin_eq_range (fun i => energyAt m c (n * 8192 + i)) 8192]
  refine Finset.sum_congr rfl fun i _ => ?_
  have hb : n * 8192 + i.val < 4194304 := by have := i.isLt; omega
  show _ = energyAt m c (n * 8192 + i.val)
  unfold energyAt
  rw [dif_pos hb]
  exact congrArg rowEnergy (funext fun k => xblk_apply m c ⟨n, hN⟩ i k hb)

/-- The two halves' entries add up to the loss. -/
theorem total_eq (c : Dev nD) :
    (0 : EReal) + ∑ p : Fin 2, halves m c (ix3 p 0 0)
      = total (m ((c : Thread nD τ).loc main_arg0)) (m ((c : Thread nD τ).loc main_arg1)) (m ((c : Thread nD τ).loc main_arg2)) := by
  have hhalf : ∀ p : Fin 2, halves m c (ix3 p 0 0)
      = ∑ s ∈ Finset.range 256, ∑ i ∈ Finset.range 8192, energyAt m c ((p.val * 256 + s) * 8192 + i) := fun p => by
    show 0 + ∑ s ∈ Finset.range 256, blockSum m c (256 * p.val + s) = _
    rw [zero_add]
    refine Finset.sum_congr rfl fun s hs => ?_
    have hs' : s < 256 := Finset.mem_range.mp hs
    have hp := p.isLt
    rw [blockSum_eq m c _ (by omega), Nat.mul_comm 256 p.val]
  have htot : total (m ((c : Thread nD τ).loc main_arg0)) (m ((c : Thread nD τ).loc main_arg1)) (m ((c : Thread nD τ).loc main_arg2))
      = ∑ T ∈ Finset.range 4194304, energyAt m c T := by
    rw [← sum_fin_eq_range (energyAt m c) 4194304]
    unfold total
    refine Finset.sum_congr rfl fun t _ => ?_
    unfold energyAt
    rw [dif_pos t.isLt]
  have hruns := sum_range_mul (energyAt m c) 8192 512
  have hpairs := sum_range_mul (fun n => ∑ i ∈ Finset.range 8192, energyAt m c (n * 8192 + i)) 256 2
  rw [show 512 * 8192 = 4194304 from by norm_num] at hruns
  rw [show 2 * 256 = 512 from by norm_num] at hpairs
  rw [zero_add, htot, hruns, hpairs, ← sum_fin_eq_range (fun p => ∑ s ∈ Finset.range 256, ∑ i ∈ Finset.range 8192, energyAt m c ((p * 256 + s) * 8192 + i)) 2]
  exact Finset.sum_congr rfl fun p _ => hhalf p

/-! ## The run, read -/

/-- From any memory with zero counters every weakly fair execution of @main terminates with the result buffer at the loss
    of the three argument arrays, and the argument arrays unchanged. -/
theorem run_value : θ_run defs (onTc (τ := τ) (main (F := Ideal))) ⟨m, fun _ => 0, ρ⟩ (fun r => ∀ c : Dev nD,
      r.2.mem ((c.tc : Thread nD τ).loc main_v7)
        = (fun _ => total (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v7 (Pipeline.mem_restRefs_of main_v7 (by decide) (by decide))).trans
        ((result_eq m c).trans (funext fun _ => total_eq m c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Region

end
-- ==== Proof.RefEnergy.lean ====
/-
  The reference program's result, read over the extended reals, is the loss of `Cert.SymDirichlet`.
-/
import proofs.«119115_j69681549410630_1_alg».proof.Proof.Gen.ReferenceIdeal.Read
import proofs.«119115_j69681549410630_1_alg».proof.Proof.Energy
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefEnergy

open Idealize.ShloMosaic Idealize.ShloMosaic.ValueIdx Cert.ReferenceIdeal Cert.ReferenceIdeal.Gen Cert.ReferenceIdeal.Read Cert.SymDirichlet

/-- The rank-1 indices of the triangle axis are the triangles. -/
private def triEquiv : S4194304.Idx ≃ Fin 4194304 where
  toFun i := i 0
  invFun t := ix1 t
  left_inv i := (eq_ix1 i).symm
  right_inv _ := rfl

/-- On the one kept axis the dropped index has the source's triangle coordinate. -/
private theorem drop_val (i : S4194304x2x2.Idx) :
    ((reducesTo_S4194304x2x2_S4194304_d1_2.drop i 0 : Fin _) : Nat) = (i 0).val :=
  Shape.ReducesTo.drop_apply_val_of_eq reducesTo_S4194304x2x2_S4194304_d1_2 i 0 0

/-- The sum over the two matrix axes, read at triangle t: the initial value plus the double sum of the four entries. -/
private theorem reduce_rows (x : S4194304x2x2.Idx → EReal) (init : EReal) (t : Fin 4194304) :
    Ideal.hostReduceAdd reducesTo_S4194304x2x2_S4194304_d1_2 x init (ix1 t)
      = init + ∑ p : Fin 2, ∑ q : Fin 2, x (ix3 t p q) := by
  unfold Ideal.hostReduceAdd
  refine congrArg (init + ·) ?_
  rw [← Fintype.sum_prod_type (f := fun pq : Fin 2 × Fin 2 => x (ix3 t pq.1 pq.2))]
  have key : ∀ i : S4194304x2x2.Idx, reducesTo_S4194304x2x2_S4194304_d1_2.drop i = ix1 t → (i 0).val = t.val := by
    intro i hi
    rw [← drop_val i, hi]
  refine Finset.sum_bij' (fun i _ => ((i 1 : Fin 2), (i 2 : Fin 2))) (fun pq _ => ix3 t pq.1 pq.2) ?_ ?_ ?_ ?_ ?_
  · intro i _; exact Finset.mem_univ _
  · intro pq _
    rw [Finset.mem_filter]
    refine ⟨Finset.mem_univ _, funext fun b => Fin.ext ?_⟩
    match b with
    | ⟨0, _⟩ => exact drop_val (ix3 t pq.1 pq.2)
  · intro i hi
    rw [Finset.mem_filter] at hi
    have h0 := key i hi.2
    funext a
    match a with
    | ⟨0, _⟩ => exact Fin.ext h0.symm
    | ⟨1, _⟩ => rfl
    | ⟨2, _⟩ => rfl
  · intro pq _; rfl
  · intro i hi
    rw [Finset.mem_filter] at hi
    have h0 := key i hi.2
    refine congrArg x (funext fun a => ?_)
    match a with
    | ⟨0, _⟩ => exact Fin.ext h0
    | ⟨1, _⟩ => rfl
    | ⟨2, _⟩ => rfl

/-! The vertex slices: vertex `v` of triangle `t`, coordinate `c`. -/

private theorem v0_at (y : FVec Ideal S4194304x3x2 .f32) (t : Fin 4194304) (c : Fin 2) :
    val_main_v0 (F := Ideal) y (ix3 t 0 c) = y (ix3 t 0 c) := by
  rw [val_main_v0_apply]
  refine congrArg y (funext fun a => Fin.ext ?_)
  match a with
  | ⟨0, _⟩ => rfl
  | ⟨1, _⟩ => rfl
  | ⟨2, _⟩ => rfl

private theorem v2_at (y : FVec Ideal S4194304x3x2 .f32) (t : Fin 4194304) (c : Fin 2) :
    val_main_v2 (F := Ideal) y (ix3 t 0 c) = y (ix3 t 1 c) := by
  rw [val_main_v2_apply]
  refine congrArg y (funext fun a => Fin.ext ?_)
  match a with
  | ⟨0, _⟩ => rfl
  | ⟨1, _⟩ => rfl
  | ⟨2, _⟩ => rfl

private theorem v5_at (y : FVec Ideal S4194304x3x2 .f32) (t : Fin 4194304) (c : Fin 2) :
    val_main_v5 (F := Ideal) y (ix3 t 0 c) = y (ix3 t 2 c) := by
  rw [val_main_v5_apply]
  refine congrArg y (funext fun a => Fin.ext ?_)
  match a with
  | ⟨0, _⟩ => rfl
  | ⟨1, _⟩ => rfl
  | ⟨2, _⟩ => rfl

/-- Dropping the unit vertex axis: position `(t, c)` of the flat pair is position `(t, 0, c)`. -/
private theorem idx_v1_eq (t : Fin 4194304) (c : Fin 2) : idx_main_v1 (ix2 t c) = ix3 t 0 c :=
  funext fun a => Fin.ext (by
    match a with
    | ⟨0, _⟩ => show (t.val * 2 + c.val) / 2 = t.val; omega
    | ⟨1, _⟩ => rfl
    | ⟨2, _⟩ => show (t.val * 2 + c.val) % 2 = c.val; omega)

private theorem v1_at (y : FVec Ideal S4194304x3x2 .f32) (t : Fin 4194304) (c : Fin 2) :
    val_main_v1 (F := Ideal) y (ix2 t c) = y (ix3 t 0 c) := by
  rw [val_main_v1_apply, idx_v1_eq, v0_at]

private theorem v3_at (y : FVec Ideal S4194304x3x2 .f32) (t : Fin 4194304) (c : Fin 2) :
    val_main_v3 (F := Ideal) y (ix2 t c) = y (ix3 t 1 c) := by
  rw [val_main_v3_apply, show idx_main_v3 (ix2 t c) = ix3 t 0 c from idx_v1_eq t c, v2_at]

private theorem v6_at (y : FVec Ideal S4194304x3x2 .f32) (t : Fin 4194304) (c : Fin 2) :
    val_main_v6 (F := Ideal) y (ix2 t c) = y (ix3 t 2 c) := by
  rw [val_main_v6_apply, show idx_main_v6 (ix2 t c) = ix3 t 0 c from idx_v1_eq t c, v5_at]

/-- The first edge vector `v1 - v0`, coordinate `c`. -/
private theorem v4_at (y : FVec Ideal S4194304x3x2 .f32) (t : Fin 4194304) (c : Fin 2) :
    val_main_v4 (F := Ideal) y (ix2 t c) = y (ix3 t 1 c) - y (ix3 t 0 c) := by
  rw [val_main_v4_apply, v3_at, v1_at]; rfl

/-- The second edge vector `v2 - v0`, coordinate `c`. -/
private theorem v7_at (y : FVec Ideal S4194304x3x2 .f32) (t : Fin 4194304) (c : Fin 2) :
    val_main_v7 (F := Ideal) y (ix2 t c) = y (ix3 t 2 c) - y (ix3 t 0 c) := by
  rw [val_main_v7_apply, v6_at, v1_at]; rfl

private theorem idx_v8_eq (t : Fin 4194304) (c : Fin 2) : idx_main_v8 (ix3 t c 0) = ix2 t c :=
  funext fun a => Fin.ext (by
    match a with
    | ⟨0, _⟩ => rfl
    | ⟨1, _⟩ => rfl)

private theorem v8_at (y : FVec Ideal S4194304x3x2 .f32) (t : Fin 4194304) (c : Fin 2) :
    val_main_v8 (F := Ideal) y (ix3 t c 0) = y (ix3 t 1 c) - y (ix3 t 0 c) := by
  rw [val_main_v8_apply, idx_v8_eq, v4_at]

private theorem v9_at (y : FVec Ideal S4194304x3x2 .f32) (t : Fin 4194304) (c : Fin 2) :
    val_main_v9 (F := Ideal) y (ix3 t c 0) = y (ix3 t 2 c) - y (ix3 t 0 c) := by
  rw [val_main_v9_apply, show idx_main_v9 (ix3 t c 0) = ix2 t c from idx_v8_eq t c, v7_at]

/-- The edge matrix `B`: its first column is the first edge vector … -/
private theorem v10_at0 (y : FVec Ideal S4194304x3x2 .f32) (t : Fin 4194304) (c : Fin 2) :
    val_main_v10 (F := Ideal) y (ix3 t c 0) = y (ix3 t 1 c) - y (ix3 t 0 c) := by
  unfold val_main_v10
  refine (concatenate_pair_apply_left (t := S4194304x2x2) (s₁ := S4194304x2x1) (s₂ := S4194304x2x1) 2
    (val_main_v8 (F := Ideal) y) (val_main_v9 (F := Ideal) y) concatenates_S4194304x2x1_S4194304x2x1_S4194304x2x2_d2
    (ix3 t c 0 : S4194304x2x2.Idx) rfl (ix3 t c 0 : S4194304x2x1.Idx) (fun b => ?_)).trans (v8_at y t c)
  match b with
  | ⟨0, _⟩ => rfl
  | ⟨1, _⟩ => rfl
  | ⟨2, _⟩ => rfl

/-- … and its second column the second edge vector. -/
private theorem v10_at1 (y : FVec Ideal S4194304x3x2 .f32) (t : Fin 4194304) (c : Fin 2) :
    val_main_v10 (F := Ideal) y (ix3 t c 1) = y (ix3 t 2 c) - y (ix3 t 0 c) := by
  unfold val_main_v10
  refine (concatenate_pair_apply_right (t := S4194304x2x2) (s₁ := S4194304x2x1) (s₂ := S4194304x2x1) 2
    (val_main_v8 (F := Ideal) y) (val_main_v9 (F := Ideal) y) concatenates_S4194304x2x1_S4194304x2x1_S4194304x2x2_d2
    (ix3 t c 1 : S4194304x2x2.Idx) rfl rfl (ix3 t c 0 : S4194304x2x1.Idx) (fun b hb => ?_) ?_).trans (v9_at y t c)
  · match b, hb with
    | ⟨0, _⟩, _ => rfl
    | ⟨1, _⟩, _ => rfl
    | ⟨2, _⟩, hb => exact absurd rfl hb
  · rfl

private theorem lidx_eq (t : Fin 4194304) (p q k : Fin 2) : lidx_main_v11 (ix3 t p q) k = ix3 t p k :=
  funext fun a => Fin.ext (by
    match a with
    | ⟨0, _⟩ => rfl
    | ⟨1, _⟩ => rfl
    | ⟨2, _⟩ => rfl)

private theorem ridx_eq (t : Fin 4194304) (p q k : Fin 2) : ridx_main_v11 (ix3 t p q) k = ix3 t k q :=
  funext fun a => Fin.ext (by
    match a with
    | ⟨0, _⟩ => rfl
    | ⟨1, _⟩ => rfl
    | ⟨2, _⟩ => rfl)

/-- The Jacobian `J = B * Ainv`, entry `(p, q)`: the two-term contraction over the columns of `B`. -/
private theorem v11_at (y : FVec Ideal S4194304x3x2 .f32) (A : FVec Ideal S4194304x2x2 .f32) (t : Fin 4194304) (p q : Fin 2) :
    val_main_v11 (F := Ideal) y A (ix3 t p q)
      = (y (ix3 t 1 p) - y (ix3 t 0 p)) * A (ix3 t 0 q) + (y (ix3 t 2 p) - y (ix3 t 0 p)) * A (ix3 t 1 q) := by
  rw [val_main_v11_apply, Fin.sum_univ_two, lidx_eq, lidx_eq, ridx_eq, ridx_eq, v10_at0, v10_at1]

/-- Entry `(p, q)` of the Jacobian of triangle `t`. -/
private def jac (y : FVec Ideal S4194304x3x2 .f32) (A : FVec Ideal S4194304x2x2 .f32) (t : Fin 4194304) (p q : Fin 2) : EReal :=
  (y (ix3 t 1 p) - y (ix3 t 0 p)) * A (ix3 t 0 q) + (y (ix3 t 2 p) - y (ix3 t 0 p)) * A (ix3 t 1 q)

private theorem v12_at (y : FVec Ideal S4194304x3x2 .f32) (A : FVec Ideal S4194304x2x2 .f32) (t : Fin 4194304) (p q : Fin 2) :
    val_main_v12 (F := Ideal) y A (ix3 t p q) = jac y A t p q * jac y A t p q := by
  rw [val_main_v12_apply, v11_at]; rfl

/-- The squared Frobenius norm: from the zero word, the sum over the two matrix axes of the squared entries. -/
private theorem v13_at (y : FVec Ideal S4194304x3x2 .f32) (A : FVec Ideal S4194304x2x2 .f32) (t : Fin 4194304) :
    val_main_v13 (F := Ideal) y A (ix1 t)
      = jac y A t 0 0 * jac y A t 0 0 + jac y A t 0 1 * jac y A t 0 1
        + (jac y A t 1 0 * jac y A t 1 0 + jac y A t 1 1 * jac y A t 1 1) := by
  unfold val_main_v13
  show Ideal.hostReduceAdd reducesTo_S4194304x2x2_S4194304_d1_2 (val_main_v12 (F := Ideal) y A)
    (val_main_cst (F := Ideal) (Shape.Idx.first h_S_)) (ix1 t) = _
  rw [reduce_rows, val_main_cst_apply, Ideal.ofBits_def, Ideal.ofBits_zero_f32, zero_add, Fin.sum_univ_two,
    Fin.sum_univ_two, Fin.sum_univ_two, v12_at, v12_at, v12_at, v12_at]

/-! The four entries of the Jacobian cut out for the determinant. -/

private theorem idx_v15_eq (t : Fin 4194304) : idx_main_v15 (ix1 t) = ix3 t 0 0 :=
  funext fun a => Fin.ext (by
    match a with
    | ⟨0, _⟩ => show t.val / 1 = t.val; omega
    | ⟨1, _⟩ => rfl
    | ⟨2, _⟩ => rfl)

private theorem idx_v14_eq (t : Fin 4194304) : idx_main_v14 (ix3 t 0 0) = ix3 t 0 0 :=
  funext fun a => Fin.ext (by
    match a with
    | ⟨0, _⟩ => rfl
    | ⟨1, _⟩ => rfl
    | ⟨2, _⟩ => rfl)

private theorem idx_v16_eq (t : Fin 4194304) : idx_main_v16 (ix3 t 0 0) = ix3 t 1 1 :=
  funext fun a => Fin.ext (by
    match a with
    | ⟨0, _⟩ => rfl
    | ⟨1, _⟩ => rfl
    | ⟨2, _⟩ => rfl)

private theorem idx_v19_eq (t : Fin 4194304) : idx_main_v19 (ix3 t 0 0) = ix3 t 0 1 :=
  funext fun a => Fin.ext (by
    match a with
    | ⟨0, _⟩ => rfl
    | ⟨1, _⟩ => rfl
    | ⟨2, _⟩ => rfl)

private theorem idx_v21_eq (t : Fin 4194304) : idx_main_v21 (ix3 t 0 0) = ix3 t 1 0 :=
  funext fun a => Fin.ext (by
    match a with
    | ⟨0, _⟩ => rfl
    | ⟨1, _⟩ => rfl
    | ⟨2, _⟩ => rfl)

private theorem v15_at (y : FVec Ideal S4194304x3x2 .f32) (A : FVec Ideal S4194304x2x2 .f32) (t : Fin 4194304) :
    val_main_v15 (F := Ideal) y A (ix1 t) = jac y A t 0 0 := by
  rw [val_main_v15_apply, idx_v15_eq, val_main_v14_apply, idx_v14_eq, v11_at]; rfl

private theorem v17_at (y : FVec Ideal S4194304x3x2 .f32) (A : FVec Ideal S4194304x2x2 .f32) (t : Fin 4194304) :
    val_main_v17 (F := Ideal) y A (ix1 t) = jac y A t 1 1 := by
  rw [val_main_v17_apply, show idx_main_v17 (ix1 t) = ix3 t 0 0 from idx_v15_eq t, val_main_v16_apply, idx_v16_eq, v11_at]; rfl

private theorem v20_at (y : FVec Ideal S4194304x3x2 .f32) (A : FVec Ideal S4194304x2x2 .f32) (t : Fin 4194304) :
    val_main_v20 (F := Ideal) y A (ix1 t) = jac y A t 0 1 := by
  rw [val_main_v20_apply, show idx_main_v20 (ix1 t) = ix3 t 0 0 from idx_v15_eq t, val_main_v19_apply, idx_v19_eq, v11_at]; rfl

private theorem v22_at (y : FVec Ideal S4194304x3x2 .f32) (A : FVec Ideal S4194304x2x2 .f32) (t : Fin 4194304) :
    val_main_v22 (F := Ideal) y A (ix1 t) = jac y A t 1 0 := by
  rw [val_main_v22_apply, show idx_main_v22 (ix1 t) = ix3 t 0 0 from idx_v15_eq t, val_main_v21_apply, idx_v21_eq, v11_at]; rfl

/-- The contribution of a triangle, written on the entries of its Jacobian. -/
private theorem rowEnergy_row (y : FVec Ideal S4194304x3x2 .f32) (A : FVec Ideal S4194304x2x2 .f32) (a : FVec Ideal S4194304 .f32)
    (t : Fin 4194304) :
    rowEnergy (row y A a t)
      = a (ix1 t) * (jac y A t 0 0 * jac y A t 0 0 + jac y A t 0 1 * jac y A t 0 1 + jac y A t 1 0 * jac y A t 1 0
            + jac y A t 1 1 * jac y A t 1 1)
          * (one + Ideal.div one ((jac y A t 0 0 * jac y A t 1 1 - jac y A t 0 1 * jac y A t 1 0)
              * (jac y A t 0 0 * jac y A t 1 1 - jac y A t 0 1 * jac y A t 1 0))) := rfl

/-- The reference's per-triangle value is the triangle's contribution: the same operations in the same order, the four
    squared entries summed in two pairs instead of left to right (associativity of the sum). -/
private theorem v31_at (y : FVec Ideal S4194304x3x2 .f32) (A : FVec Ideal S4194304x2x2 .f32) (a : FVec Ideal S4194304 .f32)
    (t : Fin 4194304) : val_main_v31 (F := Ideal) y A a (ix1 t) = rowEnergy (row y A a t) := by
  rw [rowEnergy_row, val_main_v31_apply, val_main_v25_apply, v13_at, val_main_v30_apply, val_main_v29_apply,
    val_main_cst_1_apply, val_main_v28_apply, val_main_v27_apply, val_main_cst_0_apply, val_main_v26_apply,
    val_main_v24_apply, val_main_v18_apply, val_main_v23_apply, v15_at, v17_at, v20_at, v22_at]
  simp only [Ideal.mulf_def, Ideal.addf_def, Ideal.subf_def, Ideal.hostDivf_def, Ideal.ofBits_def, add_assoc]

/-- The reference's result is the sum over the triangles of their contributions. -/
theorem result_eq (y : FVec Ideal S4194304x3x2 .f32) (A : FVec Ideal S4194304x2x2 .f32) (a : FVec Ideal S4194304 .f32) :
    val_main_v32 (F := Ideal) y A a = fun _ => total y A a := by
  funext i
  rw [val_main_v32_apply, val_main_cst_2_apply, Ideal.ofBits_def, Ideal.ofBits_zero_f32, zero_add]
  unfold total
  rw [← Equiv.sum_comp triEquiv.symm]
  exact Finset.sum_congr rfl fun t _ => v31_at y A a t

end Cert.ReferenceIdeal.RefEnergy

end
-- ==== Proof.lean ====
/-
  A symmetric-Dirichlet mesh energy, accumulated block by block, against its one-line reference.

  Both programs take 4194304 triangles, each with three deformed vertices, the inverse of its rest-pose edge matrix and an
  area weight, and return the area-weighted sum of `|J|_F^2 * (1 + 1 / det(J)^2)` over the triangles, `J` the 2x2
  deformation Jacobian (`Cert.SymDirichlet.total`, Proof/Energy.lean). Inside one triangle the two programs apply the same
  operations in the same order — the reference's batched 2x2 matrix product and its sum over the matrix entries read as the
  two- and four-term sums the kernel writes out —, so a triangle's contribution is one function of its eleven numbers on the
  extended reals, infinities and the quotient by zero included; no law beyond commutativity and associativity of addition is
  used, and the precondition is never opened.
  The kernel joins the three arrays into one array of eleven columns, walks it 8192 rows at a time over a grid of 2 x 256
  points, adds each block's column sum into an accumulator block that is reset at the first point of each half of the grid
  and written back after its last point, and the host adds the two halves. The reference sums the 4194304 contributions at
  once. The sums agree because a sum over the first `a * b` naturals is the sum of its `a` runs of length `b`
  (Proof/BlockSums.lean), used twice: 4194304 = 512 * 8192 and 512 = 2 * 256.
  The frames: the reference's is its run with the result dropped; the kernel's two (the word-level program and its
  idealization are the same text) are one proof for any float instance (Proof/KI/Frame.lean, Proof/K/Frame.lean): the body's
  run at a first and at a later point of a half of the grid, the accumulator's contents point by point as the proof data of
  the library's launch around the region. The idealization rewrote nothing, so `preserves` has nothing to state.
-/
import proofs.«119115_j69681549410630_1_alg».proof.Defs
import proofs.«119115_j69681549410630_1_alg».proof.Proof.Gen.Kernel
import proofs.«119115_j69681549410630_1_alg».proof.Proof.Gen.KernelIdeal
import proofs.«119115_j69681549410630_1_alg».proof.Proof.Gen.ReferenceIdeal
import proofs.«119115_j69681549410630_1_alg».proof.Proof.Gen.ReferenceIdeal.Run
import proofs.«119115_j69681549410630_1_alg».proof.Proof.Gen.ReferenceIdeal.Read
import proofs.«119115_j69681549410630_1_alg».proof.Proof.Gen.Pre_finite_inputs
import proofs.«119115_j69681549410630_1_alg».proof.Proof.K.Frame
import proofs.«119115_j69681549410630_1_alg».proof.Proof.KI.Final
import proofs.«119115_j69681549410630_1_alg».proof.Proof.RefEnergy
import Idealize.ShloMosaic.Adequacy
import Idealize.ShloMosaic.Init

noncomputable section

namespace Cert.Proof

open Idealize.ShloMosaic Idealize.SL.Sem

theorem frame_kernel : Cert.frame_Kernel := fun m ρ _ => Cert.Kernel.Region.frame m ρ

theorem frame_kernelIdeal : Cert.frame_KernelIdeal := fun m ρ _ => Cert.KernelIdeal.Region.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the loss of the argument arrays in their result buffer: the kernel's by the accumulation read
    over the extended reals, the reference's by its run read one operation at a time; the arguments agree, so do the losses. -/
theorem algebraic : Cert.algebraic_KernelIdeal_ReferenceIdeal := by
  intro m ρ m' ρ' _ hagree
  refine ⟨fun c _ => Cert.SymDirichlet.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Region.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefEnergy.result_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
